-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S1600000x32 : Shape := ⟨2, ![1600000, 32]⟩
abbrev S64x16 : Shape := ⟨2, ![64, 16]⟩
abbrev S50000 : Shape := ⟨1, ![50000]⟩
abbrev S64x64 : Shape := ⟨2, ![64, 64]⟩
abbrev S64 : Shape := ⟨1, ![64]⟩
abbrev S112x64 : Shape := ⟨2, ![112, 64]⟩
abbrev S64x32 : Shape := ⟨2, ![64, 32]⟩
abbrev S32 : Shape := ⟨1, ![32]⟩
abbrev S_ : Shape := ⟨0, ![]⟩
abbrev S1x1600000 : Shape := ⟨2, ![1, 1600000]⟩
abbrev S1600000 : Shape := ⟨1, ![1600000]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x16 : S_.BroadcastsInDim S64x16 (![] : Fin 0 → Fin S64x16.rank)
  reducesTo_S64x16_S_d0_1 : S64x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S112x64 : S_.BroadcastsInDim S112x64 (![] : Fin 0 → Fin S112x64.rank)
  reducesTo_S112x64_S_d0_1 : S112x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_v64 : IVec S_ 1) (main_v66 : IVec S50000 1) (main_v68 : IVec S50000 1) : IVec S_ 1 :=
  let main_v69 : IVec S50000 1 := andi main_v66 main_v68
  let main_c_25 : IVec S_ 1 := constantI S_ 1 1#1
  let main_v70 : IVec S_ 1 := (fun x v => Host.reduce IntOp.andi x v reducesTo_S50000_S_d0 h_S_) main_v69 main_c_25
  let main_v71 : IVec S_ 1 := andi main_v64 main_v70
  main_v71

def fn_part3 {F : FTy → Type} [FloatOps F] (main_arg1 : IVec S2x1600000 32) (main_arg4 : IVec S50000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : IVec S1x1600000 32 := (extractStridedSlice S1x1600000 ![1, 0] · slices_S2x1600000_S1x1600000_1_0) main_arg1
  let main_v55 : IVec S1600000 32 := shapeCast S1600000 main_v54 shapeCasts_S1x1600000_S1600000
  let main_c_20 : IVec S_ 32 := constantI S_ 32 4294917296#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![1, 0] · slices_S2x1600000_S1x1600000_1_0) main_arg1
  let main_v59 : IVec S1600000 32 := shapeCast S1600000 main_v58 shapeCasts_S1x1600000_S1600000
  let main_c_21 : IVec S_ 32 := constantI S_ 32 50000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  let main_c_23 : IVec S_ 32 := constantI S_ 32 4294967232#32
  let main_v65 : IVec S50000 32 := broadcastInDim S50000 ![] bcast_S_S50000 main_c_23
  let main_v66 : IVec S50000 1 := cmpi .sge main_arg4 main_v65
  let main_c_24 : IVec S_ 32 := constantI S_ 32 64#32
  let main_v67 : IVec S50000 32 := broadcastInDim S50000 ![] bcast_S_S50000 main_c_24
  let main_v68 : IVec S50000 1 := cmpi .slt main_arg4 main_v67
  fn_part4 (F := F) main_v64 main_v66 main_v68

def fn_part2 {F : FTy → Type} [FloatOps F] (main_arg1 : IVec S2x1600000 32) (main_arg4 : IVec S50000 32) (main_arg9 : FVec F S112x64 .f32) (main_arg10 : FVec F S64 .f32) (main_arg11 : FVec F S64x32 .f32) (main_arg12 : FVec F S32 .f32) (main_v33 : IVec S_ 1) : IVec S_ 1 :=
  let main_v34 : FVec F S112x64 .f32 := Host.absf main_arg9
  let main_cst_12 : FVec F S_ .f32 := constant S_ .f32 0x7F800000#32
  let main_v35 : FVec F S112x64 .f32 := broadcastInDim S112x64 ![] bcast_S_S112x64 main_cst_12
  let main_v36 : IVec S112x64 1 := cmpf .olt main_v34 main_v35
  let main_c_13 : IVec S_ 1 := constantI S_ 1 1#1
  let main_v37 : IVec S_ 1 := (fun x v => Host.reduce IntOp.andi x v reducesTo_S112x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg4 main_v48 main_v49 main_v50

def fn_part1 {F : FTy → Type} [FloatOps F] (main_arg1 : IVec S2x1600000 32) (main_arg4 : IVec S50000 32) (main_arg6 : FVec F S64 .f32) (main_arg7 : FVec F S64x64 .f32) (main_arg8 : FVec F S64 .f32) (main_arg9 : FVec F S112x64 .f32) (main_arg10 : FVec F S64 .f32) (main_arg11 : FVec F S64x32 .f32) (main_arg12 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg4 main_arg9 main_arg10 main_arg11 main_arg12 main_v33

def fn {F : FTy → Type} [FloatOps F] (main_arg0 : FVec F S50000x32 .f32) (main_arg1 : IVec S2x1600000 32) (main_arg2 : FVec F S1600000x32 .f32) (main_arg3 : FVec F S64x16 .f32) (main_arg4 : IVec S50000 32) (main_arg5 : FVec F S64x64 .f32) (main_arg6 : FVec F S64 .f32) (main_arg7 : FVec F S64x64 .f32) (main_arg8 : FVec F S64 .f32) (main_arg9 : FVec F S112x64 .f32) (main_arg10 : FVec F S64 .f32) (main_arg11 : FVec F S64x32 .f32) (main_arg12 : FVec F S32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg4 main_arg6 main_arg7 main_arg8 main_arg9 main_arg10 main_arg11 main_arg12 main_v13 main_v16
-- ==== Kernel.lean ====
abbrev S50000x32 : Shape := ⟨2, ![50000, 32]⟩
abbrev S2x1600000 : Shape := ⟨2, ![2, 1600000]⟩
abbrev S1600000x32 : Shape := ⟨2, ![1600000, 32]⟩
abbrev S64x16 : Shape := ⟨2, ![64, 16]⟩
abbrev S50000 : Shape := ⟨1, ![50000]⟩
abbrev S64x64 : Shape := ⟨2, ![64, 64]⟩
abbrev S64 : Shape := ⟨1, ![64]⟩
abbrev S112x64 : Shape := ⟨2, ![112, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x64 : Shape := ⟨2, ![1, 64]⟩
abbrev S1600000x64 : Shape := ⟨2, ![1600000, 64]⟩
abbrev S16000x32 : Shape := ⟨2, ![16000, 32]⟩
abbrev S16000x64 : Shape := ⟨2, ![16000, 64]⟩
abbrev S50000x64 : Shape := ⟨2, ![50000, 64]⟩
abbrev S50000x1 : Shape := ⟨2, ![50000, 1]⟩
abbrev S50000x16 : Shape := ⟨2, ![50000, 16]⟩
abbrev S1x32 : Shape := ⟨2, ![1, 32]⟩
abbrev S10000x32 : Shape := ⟨2, ![10000, 32]⟩
abbrev S10000x64 : Shape := ⟨2, ![10000, 64]⟩
abbrev S10000x16 : Shape := ⟨2, ![10000, 16]⟩
abbrev S10000x112 : Shape := ⟨2, ![10000, 112]⟩

abbrev nBuf : Space → Nat
  | .hbm => 85
  | .vmem => 22
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S64x16, .f32⟩
  | .hbm, ⟨4, _⟩ => ⟨S50000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S112x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x32, .f32⟩
  | .hbm, ⟨36, _⟩ => ⟨S1600000x32, .i1⟩
  | .hbm, ⟨37, _⟩ => ⟨S_, .f32⟩
  | .hbm, ⟨38, _⟩ => ⟨S1600000x32, .f32⟩
  | .hbm, ⟨39, _⟩ => ⟨S1600000x32, .f32⟩
  | .hbm, ⟨40, _⟩ => ⟨S1x64, .f32⟩
  | .hbm, ⟨41, _⟩ => ⟨S1x64, .f32⟩
  | .hbm, ⟨42, _⟩ => ⟨S1600000x64, .f32⟩
  | .hbm, ⟨43, _⟩ => ⟨S_, .f32⟩
  | .hbm, ⟨44, _⟩ => ⟨S50000x64, .f32⟩
  | .hbm, ⟨45, _⟩ => ⟨S1600000x1, .i32⟩
  | .hbm, ⟨46, _⟩ => ⟨S50000x64, .f32⟩
  | .hbm, ⟨47, _⟩ => ⟨S_, .f32⟩
  | .hbm, ⟨48, _⟩ => ⟨S1600000, .f32⟩
  | .hbm, ⟨49, _⟩ => ⟨S_, .f32⟩
  | .hbm, ⟨50, _⟩ => ⟨S50000, .f32⟩
  | .hbm, ⟨51, _⟩ => ⟨S1600000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S50000, .i32⟩
  | .hbm, ⟨61, _⟩ => ⟨S50000, .i1⟩
  | .hbm, ⟨62, _⟩ => ⟨S_, .i32⟩
  | .hbm, ⟨63, _⟩ => ⟨S50000, .i32⟩
  | .hbm, ⟨64, _⟩ => ⟨S50000, .i32⟩
  | .hbm, ⟨65, _⟩ => ⟨S50000, .i32⟩
  | .hbm, ⟨66, _⟩ => ⟨S50000x1, .i32⟩
  | .hbm, ⟨67, _⟩ => ⟨S1, .i32⟩
  | .hbm, ⟨68, _⟩ => ⟨S_, .i32⟩
  | .hbm, ⟨69, _⟩ => ⟨S50000x1, .i32⟩
  | .hbm, ⟨70, _⟩ => ⟨S50000x1, .i1⟩
  | .hbm, ⟨71, _⟩ => ⟨S1x1, .i32⟩
  | .hbm, ⟨72, _⟩ => ⟨S50000x1, .i32⟩
  | .hbm, ⟨73, _⟩ => ⟨S50000x1, .i1⟩
  | .hbm, ⟨74, _⟩ => ⟨S50000x1, .i1⟩
  | .hbm, ⟨75, _⟩ => ⟨S_, .i1⟩
  | .hbm, ⟨76, _⟩ => ⟨S50000, .i1⟩
  | .hbm, ⟨77, _⟩ => ⟨S50000x16, .f32⟩
  | .hbm, ⟨78, _⟩ => ⟨S50000x16, .i1⟩
  | .hbm, ⟨79, _⟩ => ⟨S_, .f32⟩
  | .hbm, ⟨80, _⟩ => ⟨S50000x16, .f32⟩
  | .hbm, ⟨81, _⟩ => ⟨S50000x16, .f32⟩
  | .hbm, ⟨82, _⟩ => ⟨S1x64, .f32⟩
  | .hbm, ⟨83, _⟩ => ⟨S1x32, .f32⟩
  | .hbm, ⟨84, _⟩ => ⟨S50000x32, .f32⟩
  | .local _ .vmem, ⟨0, _⟩ => ⟨S16000x32, .f32⟩
  | .local _ .vmem, ⟨1, _⟩ => ⟨S16000x32, .f32⟩
  | .local _ .vmem, ⟨2, _⟩ => ⟨S16000x32, .f32⟩
  | .local _ .vmem, ⟨3, _⟩ => ⟨S16000x32, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S16000x64, .f32⟩
  | .local _ .vmem, ⟨9, _⟩ => ⟨S16000x64, .f32⟩
  | .local _ .vmem, ⟨10, _⟩ => ⟨S10000x32, .f32⟩
  | .local _ .vmem, ⟨11, _⟩ => ⟨S10000x32, .f32⟩
  | .local _ .vmem, ⟨12, _⟩ => ⟨S10000x64, .f32⟩
  | .local _ .vmem, ⟨13, _⟩ => ⟨S10000x64, .f32⟩
  | .local _ .vmem, ⟨14, _⟩ => ⟨S10000x16, .f32⟩
  | .local _ .vmem, ⟨15, _⟩ => ⟨S10000x16, .f32⟩
  | .local _ .vmem, ⟨16, _⟩ => ⟨S112x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_0 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_2 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S112x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  shapeCasts_S64_S1x64 : S64.ShapeCasts S1x64
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  concatenates_S16000x32_S16000x32_S16000x64_d1 : Shape.Concatenates [S16000x32, S16000x32] S16000x64 1
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x16_0 : S50000.BroadcastsInDim S50000x16 (![0] : Fin 1 → Fin S50000x16.rank)
  bcast_S_S50000x16 : S_.BroadcastsInDim S50000x16 (![] : Fin 0 → Fin S50000x16.rank)
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  concatenates_S10000x32_S10000x64_S10000x16_S10000x112_d1 : Shape.Concatenates [S10000x32, S10000x64, S10000x16] S10000x112 1
  inb_S112x64_S112x64_0_0 : ∀ a, (![0, 0] : Fin 2 → Nat) a + S112x64.size a ≤ S112x64.size a
  h_S112x64 : 0 < S112x64.numel
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  gather_S50000x32_S1600000x1_S1600000x32_1_0_n_n_0_1_132_wf : GatherDims.WF S50000x32 S1600000x1 S1600000x32 [1] [0] [] [0] [] 1 ![1, 32]
  dot_S16000x64_S64x64_S16000x64_1_0_0_1_n_n_wf : DotDims.WF S16000x64 S64x64 S16000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  gather_S64x16_S50000x1_S50000x16_1_0_n_n_0_1_116_wf : GatherDims.WF S64x16 S50000x1 S50000x16 [1] [0] [] [0] [] 1 ![1, 16]
  dot_S10000x112_S112x64_S10000x64_1_0_0_1_n_n_wf : DotDims.WF S10000x112 S112x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16000x64.size a ≤ S1600000x64.size a
  hwx0_6 : ∀ i : grid0.Coords, EltTy.bits .f32 = 32 ∨ (Rect.block (s := S1600000x64) S16000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S50000x16.size a
  hwx1_2 : ∀ i : grid1.Coords, EltTy.bits .f32 = 32 ∨ (Rect.block (s := S50000x16) S10000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S112x64.size a ≤ S112x64.size a
  hwx1_3 : ∀ i : grid1.Coords, EltTy.bits .f32 = 32 ∨ (Rect.block (s := S112x64) S112x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S50000x32.size a
  hwx1_7 : ∀ i : grid1.Coords, EltTy.bits .f32 = 32 ∨ (Rect.block (s := S50000x32) S10000x32.size (cc1_transform_7 i) (hinb1_7 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S64x16_S50000x1_S50000x16_1_0_n_n_0_1_116 : GatherDims S64x16 S50000x1 S50000x16 where
  offsetDims := [1]
  collapsedSliceDims := [0]
  operandBatchingDims := []
  startIndicesBatchingDims := []
  startIndexMap := [0]
  indexVectorDim := 1
  sliceSizes := ![1, 16]
  wf := gather_S64x16_S50000x1_S50000x16_1_0_n_n_0_1_116_wf
def dot_S10000x112_S112x64_S10000x64_1_0_0_1_n_n : DotDims S10000x112 S112x64 S10000x64 where
  lhsContracting := [1]
  rhsContracting := [0]
  lhsNonContracting := [0]
  rhsNonContracting := [1]
  lhsBatch := []
  rhsBatch := []
  wf := dot_S10000x112_S112x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v4) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S16000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S112x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S1600000x32 : Shape := ⟨2, ![1600000, 32]⟩
abbrev S64x16 : Shape := ⟨2, ![64, 16]⟩
abbrev S50000 : Shape := ⟨1, ![50000]⟩
abbrev S64x64 : Shape := ⟨2, ![64, 64]⟩
abbrev S64 : Shape := ⟨1, ![64]⟩
abbrev S112x64 : Shape := ⟨2, ![112, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S50000x64 : Shape := ⟨2, ![50000, 64]⟩
abbrev S50000x1 : Shape := ⟨2, ![50000, 1]⟩
abbrev S50000x16 : Shape := ⟨2, ![50000, 16]⟩
abbrev S50000x112 : Shape := ⟨2, ![50000, 112]⟩
abbrev S1x32 : Shape := ⟨2, ![1, 32]⟩

abbrev nBuf : Space → Nat
  | .hbm => 78
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S64x16, .f32⟩
  | .hbm, ⟨4, _⟩ => ⟨S50000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S112x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .f32⟩
  | .hbm, ⟨26, _⟩ => ⟨S1600000x64, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .hbm, ⟨45, _⟩ => ⟨S_, .f32⟩
  | .hbm, ⟨46, _⟩ => ⟨S1600000, .f32⟩
  | .hbm, ⟨47, _⟩ => ⟨S_, .f32⟩
  | .hbm, ⟨48, _⟩ => ⟨S50000, .f32⟩
  | .hbm, ⟨49, _⟩ => ⟨S1600000x1, .i32⟩
  | .hbm, ⟨50, _⟩ => ⟨S50000, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S50000x1, .f32⟩
  | .hbm, ⟨55, _⟩ => ⟨S50000x64, .f32⟩
  | .hbm, ⟨56, _⟩ => ⟨S50000x64, .f32⟩
  | .hbm, ⟨57, _⟩ => ⟨S_, .i32⟩
  | .hbm, ⟨58, _⟩ => ⟨S50000, .i32⟩
  | .hbm, ⟨59, _⟩ => ⟨S50000, .i1⟩
  | .hbm, ⟨60, _⟩ => ⟨S_, .i32⟩
  | .hbm, ⟨61, _⟩ => ⟨S50000, .i32⟩
  | .hbm, ⟨62, _⟩ => ⟨S50000, .i32⟩
  | .hbm, ⟨63, _⟩ => ⟨S50000, .i32⟩
  | .hbm, ⟨64, _⟩ => ⟨S50000x1, .i32⟩
  | .hbm, ⟨65, _⟩ => ⟨S50000x16, .f32⟩
  | .hbm, ⟨66, _⟩ => ⟨S50000x112, .f32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x32, .f32⟩
  | .hbm, ⟨75, _⟩ => ⟨S1x32, .f32⟩
  | .hbm, ⟨76, _⟩ => ⟨S50000x32, .f32⟩
  | .hbm, ⟨77, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call2_cst : Ref sig .tc := ⟨.hbm, 71, rfl⟩
abbrev main_call2_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x32_S50000x64_S50000x16_S50000x112_d1 : Shape.Concatenates [S50000x32, S50000x64, S50000x16] S50000x112 1
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  dot_S1600000x64_S64x64_S1600000x64_1_0_0_1_n_n_wf : DotDims.WF S1600000x64 S64x64 S1600000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  gather_S64x16_S50000x1_S50000x16_1_0_n_n_0_1_116_wf : GatherDims.WF S64x16 S50000x1 S50000x16 [1] [0] [] [0] [] 1 ![1, 16]
  dot_S50000x112_S112x64_S50000x64_1_0_0_1_n_n_wf : DotDims.WF S50000x112 S112x64 S50000x64 [1] [0] [0] [1] [] []
  dot_S50000x64_S64x32_S50000x32_1_0_0_1_n_n_wf : DotDims.WF S50000x64 S64x32 S50000x32 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S64x16_S50000x1_S50000x16_1_0_n_n_0_1_116 : GatherDims S64x16 S50000x1 S50000x16 where
  offsetDims := [1]
  collapsedSliceDims := [0]
  operandBatchingDims := []
  startIndicesBatchingDims := []
  startIndexMap := [0]
  indexVectorDim := 1
  sliceSizes := ![1, 16]
  wf := gather_S64x16_S50000x1_S50000x16_1_0_n_n_0_1_116_wf
def dot_S50000x112_S112x64_S50000x64_1_0_0_1_n_n : DotDims S50000x112 S112x64 S50000x64 where
  lhsContracting := [1]
  rhsContracting := [0]
  lhsNonContracting := [0]
  rhsNonContracting := [1]
  lhsBatch := []
  rhsBatch := []
  wf := dot_S50000x112_S112x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.Spec.lean ====
/-
  The two dense stages as functions of whole arrays, entry by entry, over the extended reals.

  An edge's hidden row is  relu (relu ([x_col ‖ e] · W1a + b1a) · W1b + b1b);
  a node's output row is   relu ([x ‖ agg ‖ u_b] · W2a + b2a) · W2b + b2b.
  Each entry (r, q) of a stage's result depends on row r of the stage's row-wise operands only; that is what lets a
  stage computed block of rows by block of rows agree with the stage computed on the whole arrays at once.
-/
import Idealize.ShloMosaic.PureOps.Ideal
import Idealize.ShloMosaic.Lib.ValueIdx

noncomputable section

namespace Cert.Spec

open Idealize.ShloMosaic Idealize.ShloMosaic.ValueIdx

/-- Two rows of 32 entries laid side by side: a row of 64. -/
def cat2 (x y : Fin 32 → EReal) (l : Fin 64) : EReal :=
  if h : l.val < 32 then x ⟨l.val, h⟩ else y ⟨l.val - 32, by omega⟩

/-- Rows of 32, 64 and 16 entries laid side by side: a row of 112. -/
def cat3 (x : Fin 32 → EReal) (y : Fin 64 → EReal) (z : Fin 16 → EReal) (l : Fin 112) : EReal :=
  if h : l.val < 32 then x ⟨l.val, h⟩
  else if h2 : l.val < 96 then y ⟨l.val - 32, by omega⟩ else z ⟨l.val - 96, by omega⟩

/-- One affine layer at output column j: the row a times column j of w, plus the bias. -/
def lin {K N : Nat} (a : Fin K → EReal) (w : Fin K → Fin N → EReal) (b : Fin N → EReal) (j : Fin N) : EReal :=
  (∑ k : Fin K, a k * w k j) + b j

/-- The rectifier. -/
def relu (x : EReal) : EReal := max x 0

/-- Entry (r, q) of the edge stage. -/
def edgeAt (X E : FVec Ideal ⟨2, ![1600000, 32]⟩ .f32) (W1 : FVec Ideal ⟨2, ![64, 64]⟩ .f32) (b1 : FVec Ideal ⟨1, ![64]⟩ .f32)
    (W2 : FVec Ideal ⟨2, ![64, 64]⟩ .f32) (b2 : FVec Ideal ⟨1, ![64]⟩ .f32) (r : Fin 1600000) (q : Fin 64) : EReal :=
  relu (lin (fun k => relu (lin (cat2 (fun l => X (ix2 r l)) (fun l => E (ix2 r l))) (fun l k => W1 (ix2 l k)) (fun k => b1 (ix1 k)) k))
    (fun k j => W2 (ix2 k j)) (fun j => b2 (ix1 j)) q)

/-- The edge stage on whole arrays. -/
def edgeSpec (X E : FVec Ideal ⟨2, ![1600000, 32]⟩ .f32) (W1 : FVec Ideal ⟨2, ![64, 64]⟩ .f32) (b1 : FVec Ideal ⟨1, ![64]⟩ .f32)
    (W2 : FVec Ideal ⟨2, ![64, 64]⟩ .f32) (b2 : FVec Ideal ⟨1, ![64]⟩ .f32) : FVec Ideal ⟨2, ![1600000, 64]⟩ .f32 :=
  fun i => edgeAt X E W1 b1 W2 b2 (i 0) (i 1)

theorem edgeSpec_apply (X E W1 b1 W2 b2) (r : Fin 1600000) (q : Fin 64) :
    edgeSpec X E W1 b1 W2 b2 (ix2 r q) = edgeAt X E W1 b1 W2 b2 r q := rfl

/-- Entry (r, q) of the node stage. -/
def nodeAt (X : FVec Ideal ⟨2, ![50000, 32]⟩ .f32) (A : FVec Ideal ⟨2, ![50000, 64]⟩ .f32) (U : FVec Ideal ⟨2, ![50000, 16]⟩ .f32)
    (W1 : FVec Ideal ⟨2, ![112, 64]⟩ .f32) (b1 : FVec Ideal ⟨1, ![64]⟩ .f32)
    (W2 : FVec Ideal ⟨2, ![64, 32]⟩ .f32) (b2 : FVec Ideal ⟨1, ![32]⟩ .f32) (r : Fin 50000) (q : Fin 32) : EReal :=
  lin (fun k => relu (lin (cat3 (fun l => X (ix2 r l)) (fun l => A (ix2 r l)) (fun l => U (ix2 r l))) (fun l k => W1 (ix2 l k)) (fun k => b1 (ix1 k)) k))
    (fun k j => W2 (ix2 k j)) (fun j => b2 (ix1 j)) q

/-- The node stage on whole arrays. -/
def nodeSpec (X : FVec Ideal ⟨2, ![50000, 32]⟩ .f32) (A : FVec Ideal ⟨2, ![50000, 64]⟩ .f32) (U : FVec Ideal ⟨2, ![50000, 16]⟩ .f32)
    (W1 : FVec Ideal ⟨2, ![112, 64]⟩ .f32) (b1 : FVec Ideal ⟨1, ![64]⟩ .f32)
    (W2 : FVec Ideal ⟨2, ![64, 32]⟩ .f32) (b2 : FVec Ideal ⟨1, ![32]⟩ .f32) : FVec Ideal ⟨2, ![50000, 32]⟩ .f32 :=
  fun i => nodeAt X A U W1 b1 W2 b2 (i 0) (i 1)

theorem nodeSpec_apply (X A U W1 b1 W2 b2) (r : Fin 50000) (q : Fin 32) :
    nodeSpec X A U W1 b1 W2 b2 (ix2 r q) = nodeAt X A U W1 b1 W2 b2 r q := rfl

end Cert.Spec

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.RefValue.lean ====
/-
  The reference's two dense stages as the shared specification, and the reference's run restated over it.

  Each dense stage of the reference is a chain of whole-array operations: a concatenation of rows, a matrix product, a
  bias broadcast along the rows, a maximum with the zero array. Read at one entry (r, q), the concatenation is the row's
  pieces laid side by side, the product is the sum over the contracted axis, the broadcast bias is its entry q, and the
  maximum with zero is the rectifier: the entry is the specification's.
-/
import proofs.«416993_j73959336837503_1_alg».proof.Proof.Gen.ReferenceIdeal.Run
import proofs.«416993_j73959336837503_1_alg».proof.Proof.Spec
import proofs.«416993_j73959336837503_1_alg».proof.Proof.LibMatmul
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The pieces read at an entry -/

/-- The zero array at any entry is zero. -/
theorem zeros_apply {t : Shape} (h : S_.BroadcastsInDim t (![] : Fin 0 → Fin t.rank)) (j : t.Idx) :
    broadcastInDim t ![] h (constant (F := Ideal) S_ .f32 0x00000000#32) j = 0 := by
  rw [broadcastInDim_apply _ h _ j ix0 (fun a => a.elim0), constant_apply, Ideal.ofBits_zero_f32]

/-- A bias of N entries broadcast along M rows, at (r, q), is its entry q. -/
theorem bias_apply {M N : Nat} (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : FVec Ideal ⟨1, ![N]⟩ .f32) (r : Fin M) (q : Fin N) :
    broadcastInDim ⟨2, ![M, N]⟩ ![0, 1] h2 (broadcastInDim ⟨2, ![1, N]⟩ ![1] h1 b) (ix2 r q) = b (ix1 q) := by
  rw [broadcastInDim_apply _ h2 _ (ix2 r q) (ix2 ⟨0, Nat.one_pos⟩ q) (fun a => by
    match a with
    | ⟨0, _⟩ => show 0 = if (1 : Nat) = 1 then 0 else r.val; rw [if_pos rfl]
    | ⟨1, _⟩ =>
      show q.val = if N = 1 then 0 else q.val
      split
      · next h => have := q.isLt; omega
      · rfl)]
  rw [broadcastInDim_apply _ h1 _ (ix2 ⟨0, Nat.one_pos⟩ q) (ix1 q) (fun a => by
    match a with
    | ⟨0, _⟩ =>
      show q.val = if N = 1 then 0 else q.val
      split
      · next h => have := q.isLt; omega
      · rfl)]

/-- The edge stage's product at (r, q): the row r of the left operand times the column q of the right. -/
theorem dotE_apply (L : FVec Ideal S1600000x64 .f32) (W : FVec Ideal S64x64 .f32) (r : Fin 1600000) (q : Fin 64) :
    Host.dotGeneral dot_S1600000x64_S64x64_S1600000x64_1_0_0_1_n_n none L W (ix2 r q) = ∑ k : Fin 64, L (ix2 r k) * W (ix2 k q) :=
  Cert.Matmul.dotGeneral_plain_apply (M := 1600000) (K := 64) (N := 64) none .single L W r q

/-- The node stage's first product at (r, q). -/
theorem dotN1_apply (L : FVec Ideal S50000x112 .f32) (W : FVec Ideal S112x64 .f32) (r : Fin 50000) (q : Fin 64) :
    Host.dotGeneral dot_S50000x112_S112x64_S50000x64_1_0_0_1_n_n none L W (ix2 r q) = ∑ k : Fin 112, L (ix2 r k) * W (ix2 k q) :=
  Cert.Matmul.dotGeneral_plain_apply (M := 50000) (K := 112) (N := 64) none .single L W r q

/-- The node stage's second product at (r, q). -/
theorem dotN2_apply (L : FVec Ideal S50000x64 .f32) (W : FVec Ideal S64x32 .f32) (r : Fin 50000) (q : Fin 32) :
    Host.dotGeneral dot_S50000x64_S64x32_S50000x32_1_0_0_1_n_n none L W (ix2 r q) = ∑ k : Fin 64, L (ix2 r k) * W (ix2 k q) :=
  Cert.Matmul.dotGeneral_plain_apply (M := 50000) (K := 64) (N := 32) none .single L W r q

/-- Two arrays of 32 columns joined along the columns, at (r, l): the row r of each, side by side. -/
theorem catE_apply (XC E : FVec Ideal S1600000x32 .f32) (r : Fin 1600000) (l : Fin 64) :
    concatenate S1600000x64 1 [⟨S1600000x32, XC⟩, ⟨S1600000x32, E⟩] concatenates_S1600000x32_S1600000x32_S1600000x64_d1 (ix2 r l)
      = Cert.Spec.cat2 (fun l => XC (ix2 r l)) (fun l => E (ix2 r l)) l := by
  unfold Cert.Spec.cat2
  split
  · next h =>
    exact concatenate_pair_apply_left (t := S1600000x64) (s₁ := S1600000x32) (s₂ := S1600000x32) 1 XC E _ (ix2 r l) rfl (ix2 r ⟨l.val, h⟩)
      (fun b => by
        match b with
        | ⟨0, _⟩ => rfl
        | ⟨1, _⟩ => rfl)
  · next h =>
    exact concatenate_pair_apply_right (t := S1600000x64) (s₁ := S1600000x32) (s₂ := S1600000x32) 1 XC E _ (ix2 r l) rfl rfl
      (ix2 r ⟨l.val - 32, by have := l.isLt; omega⟩)
      (fun b hb => by
        match b with
        | ⟨0, _⟩ => rfl
        | ⟨1, _⟩ => exact absurd rfl hb)
      (by show l.val - 32 + 32 = l.val; omega)

/-- Arrays of 32, 64 and 16 columns joined along the columns, at (r, l): the row r of each, side by side. -/
theorem catN_apply (X : FVec Ideal S50000x32 .f32) (A : FVec Ideal S50000x64 .f32) (Ub : FVec Ideal S50000x16 .f32) (r : Fin 50000) (l : Fin 112) :
    concatenate S50000x112 1 [⟨S50000x32, X⟩, ⟨S50000x64, A⟩, ⟨S50000x16, Ub⟩] concatenates_S50000x32_S50000x64_S50000x16_S50000x112_d1 (ix2 r l)
      = Cert.Spec.cat3 (fun l => X (ix2 r l)) (fun l => A (ix2 r l)) (fun l => Ub (ix2 r l)) l := by
  unfold Cert.Spec.cat3
  split
  · next h =>
    exact concatenate_apply_piece (t := S50000x112) 1 _ _ (ix2 r l) 0 (by show (0 : Nat) < 3; omega) S50000x32 X rfl rfl 0 rfl (ix2 r ⟨l.val, h⟩)
      (fun b hb => by
        match b with
        | ⟨0, _⟩ => rfl
        | ⟨1, _⟩ => exact absurd rfl hb)
      (by show 0 + l.val = l.val; omega)
  · next h =>
    split
    · next h2 =>
      exact concatenate_apply_piece (t := S50000x112) 1 _ _ (ix2 r l) 1 (by show (1 : Nat) < 3; omega) S50000x64 A rfl rfl 32 rfl
        (ix2 r ⟨l.val - 32, by omega⟩)
        (fun b hb => by
          match b with
          | ⟨0, _⟩ => rfl
          | ⟨1, _⟩ => exact absurd rfl hb)
        (by show 32 + (l.val - 32) = l.val; omega)
    · next h2 =>
      exact concatenate_apply_piece (t := S50000x112) 1 _ _ (ix2 r l) 2 (by show (2 : Nat) < 3; omega) S50000x16 Ub rfl rfl 96 rfl
        (ix2 r ⟨l.val - 96, by have := l.isLt; omega⟩)
        (fun b hb => by
          match b with
          | ⟨0, _⟩ => rfl
          | ⟨1, _⟩ => exact absurd rfl hb)
        (by show 96 + (l.val - 96) = l.val; omega)

/-! ## The two stages on whole arrays -/

/-- THE EDGE STAGE: the reference's chain of operations on the gathered rows and the edge rows is the specification. -/
theorem ref_edge (XC E : FVec Ideal S1600000x32 .f32) (W1 : FVec Ideal S64x64 .f32) (b1 : FVec Ideal S64 .f32) (W2 : FVec Ideal S64x64 .f32) (b2 : FVec Ideal S64 .f32) :
    maximumf (addf (Host.dotGeneral dot_S1600000x64_S64x64_S1600000x64_1_0_0_1_n_n none (maximumf (addf (Host.dotGeneral dot_S1600000x64_S64x64_S1600000x64_1_0_0_1_n_n none (concatenate S1600000x64 1 [⟨S1600000x32, XC⟩, ⟨S1600000x32, E⟩] concatenates_S1600000x32_S1600000x32_S1600000x64_d1) W1) (broadcastInDim S1600000x64 ![0, 1] bcast_S1x64_S1600000x64_0_1 (broadcastInDim S1x64 ![1] bcast_S64_S1x64_1 b1))) (broadcastInDim S1600000x64 ![] bcast_S_S1600000x64 (constant S_ .f32 0x00000000#32))) W2) (broadcastInDim S1600000x64 ![0, 1] bcast_S1x64_S1600000x64_0_1 (broadcastInDim S1x64 ![1] bcast_S64_S1x64_1 b2))) (broadcastInDim S1600000x64 ![] bcast_S_S1600000x64 (constant S_ .f32 0x00000000#32))
      = Cert.Spec.edgeSpec XC E W1 b1 W2 b2 := by
  funext j
  obtain ⟨r, q, rfl⟩ : ∃ (r : Fin 1600000) (q : Fin 64), j = ix2 r q := ⟨j 0, j 1, eq_ix2 j⟩
  rw [Cert.Spec.edgeSpec_apply, maximumf_apply, addf_apply, dotE_apply, bias_apply, zeros_apply]
  unfold Cert.Spec.edgeAt Cert.Spec.lin Cert.Spec.relu
  refine congrArg (fun s => max (s + b2 (ix1 q)) 0) (Finset.sum_congr rfl fun k _ => ?_)
  rw [maximumf_apply, addf_apply, dotE_apply, bias_apply, zeros_apply]
  refine congrArg (fun s => max (s + b1 (ix1 k)) 0 * W2 (ix2 k q)) (Finset.sum_congr rfl fun l _ => ?_)
  rw [catE_apply]

/-- THE NODE STAGE: the reference's chain of operations on the node rows, the aggregated rows and the graph rows is the
    specification. -/
theorem ref_node (X : FVec Ideal S50000x32 .f32) (A : FVec Ideal S50000x64 .f32) (Ub : FVec Ideal S50000x16 .f32) (W1 : FVec Ideal S112x64 .f32) (b1 : FVec Ideal S64 .f32) (W2 : FVec Ideal S64x32 .f32) (b2 : FVec Ideal S32 .f32) :
    addf (Host.dotGeneral dot_S50000x64_S64x32_S50000x32_1_0_0_1_n_n none (maximumf (addf (Host.dotGeneral dot_S50000x112_S112x64_S50000x64_1_0_0_1_n_n none (concatenate S50000x112 1 [⟨S50000x32, X⟩, ⟨S50000x64, A⟩, ⟨S50000x16, Ub⟩] concatenates_S50000x32_S50000x64_S50000x16_S50000x112_d1) W1) (broadcastInDim S50000x64 ![0, 1] bcast_S1x64_S50000x64_0_1 (broadcastInDim S1x64 ![1] bcast_S64_S1x64_1 b1))) (broadcastInDim S50000x64 ![] bcast_S_S50000x64 (constant S_ .f32 0x00000000#32))) W2) (broadcastInDim S50000x32 ![0, 1] bcast_S1x32_S50000x32_0_1 (broadcastInDim S1x32 ![1] bcast_S32_S1x32_1 b2))
      = Cert.Spec.nodeSpec X A Ub W1 b1 W2 b2 := by
  funext j
  obtain ⟨r, q, rfl⟩ : ∃ (r : Fin 50000) (q : Fin 32), j = ix2 r q := ⟨j 0, j 1, eq_ix2 j⟩
  rw [Cert.Spec.nodeSpec_apply, addf_apply, dotN2_apply, bias_apply]
  unfold Cert.Spec.nodeAt Cert.Spec.lin Cert.Spec.relu
  refine congrArg (fun s => s + b2 (ix1 q)) (Finset.sum_congr rfl fun k _ => ?_)
  rw [maximumf_apply, addf_apply, dotN1_apply, bias_apply, zeros_apply]
  refine congrArg (fun s => max (s + b1 (ix1 k)) 0 * W2 (ix2 k q)) (Finset.sum_congr rfl fun l _ => ?_)
  rw [catN_apply]

/-! ## The host steps between and around the stages -/

/-- The receiving end of each edge, as a column of row numbers: the second row of the edge list, a negative entry
    counted from the end of the 50000 node rows. -/
abbrev colIdx (a1 : IVec S2x1600000 32) : IVec S1600000x1 32 :=
  broadcastInDim S1600000x1 ![0] bcast_S1600000_S1600000x1_0 (select (cmpi .slt (shapeCast _ (extractStridedSlice S1x1600000 ![1, 0] a1 slices_S2x1600000_S1x1600000_1_0) shapeCasts_S1x1600000_S1600000) (broadcastInDim S1600000 ![] bcast_S_S1600000 (constantI S_ 32 0#32))) (addi (shapeCast _ (extractStridedSlice S1x1600000 ![1, 0] a1 slices_S2x1600000_S1x1600000_1_0) shapeCasts_S1x1600000_S1600000) (broadcastInDim S1600000 ![] bcast_S_S1600000 (constantI S_ 32 50000#32))) (shapeCast _ (extractStridedSlice S1x1600000 ![1, 0] a1 slices_S2x1600000_S1x1600000_1_0) shapeCasts_S1x1600000_S1600000))

/-- The sending end of each edge, as a column of row numbers: the first row of the edge list. -/
abbrev rowIdx (a1 : IVec S2x1600000 32) : IVec S1600000x1 32 :=
  broadcastInDim S1600000x1 ![0] bcast_S1600000_S1600000x1_0 (shapeCast _ (extractStridedSlice S1x1600000 ![0, 0] a1 slices_S2x1600000_S1x1600000_0_0) shapeCasts_S1x1600000_S1600000)

/-- The graph of each node, as a column of row numbers: a negative entry counted from the end of the 64 graph rows. -/
abbrev batIdx (a4 : IVec S50000 32) : IVec S50000x1 32 :=
  broadcastInDim S50000x1 ![0] bcast_S50000_S50000x1_0 (select (cmpi .slt a4 (broadcastInDim S50000 ![] bcast_S_S50000 (constantI S_ 32 0#32))) (addi a4 (broadcastInDim S50000 ![] bcast_S_S50000 (constantI S_ 32 64#32))) a4)

/-- The mean of the edge rows by node: the rows summed into their node's row, each node's row divided by the number of
    its edges, or by one where it has none. -/
abbrev meanBy (ri : IVec S1600000x1 32) (H : FVec Ideal S1600000x64 .f32) : FVec Ideal S50000x64 .f32 :=
  Host.divf (Host.scatterAdd scatter_S50000x64_S1600000x1_S1600000x64_1_0_0_1 (broadcastInDim S50000x64 ![] bcast_S_S50000x64 (constant S_ .f32 0x00000000#32)) ri H) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) ri (broadcastInDim S1600000 ![] bcast_S_S1600000 (constant S_ .f32 0x3F800000#32))) (broadcastInDim S50000 ![] bcast_S_S50000 (constant S_ .f32 0x3F800000#32)))))

/-! ## The whole reference -/

/-- The reference's composed term over any thirteen argument arrays: the node stage of the node rows, the mean by sender
    of the edge stage (of the receivers' node rows and the edge rows), and the nodes' graph rows. -/
theorem ref_main (a0 : FVec Ideal S50000x32 .f32) (a1 : IVec S2x1600000 32) (a2 : FVec Ideal S1600000x32 .f32) (a3 : FVec Ideal S64x16 .f32)
    (a4 : IVec S50000 32) (a5 : FVec Ideal S64x64 .f32) (a6 : FVec Ideal S64 .f32) (a7 : FVec Ideal S64x64 .f32) (a8 : FVec Ideal S64 .f32)
    (a9 : FVec Ideal S112x64 .f32) (a10 : FVec Ideal S64 .f32) (a11 : FVec Ideal S64x32 .f32) (a12 : FVec Ideal S32 .f32) :
    addf (Host.dotGeneral dot_S50000x64_S64x32_S50000x32_1_0_0_1_n_n none (maximumf (addf (Host.dotGeneral dot_S50000x112_S112x64_S50000x64_1_0_0_1_n_n none (concatenate S50000x112 1 [⟨S50000x32, a0⟩, ⟨S50000x64, (Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (shapeCast _ (extractStridedSlice S1x1600000 ![0, 0] a1 slices_S2x1600000_S1x1600000_0_0) shapeCasts_S1x1600000_S1600000)) (maximumf (addf (Host.dotGeneral dot_S1600000x64_S64x64_S1600000x64_1_0_0_1_n_n none (maximumf (addf (Host.dotGeneral dot_S1600000x64_S64x64_S1600000x64_1_0_0_1_n_n none (concatenate S1600000x64 1 [⟨S1600000x32, (Host.gather gather_S50000x32_S1600000x1_S1600000x32_1_0_n_n_0_1_132 a0 (broadcastInDim S1600000x1 ![0] bcast_S1600000_S1600000x1_0 (select (cmpi .slt (shapeCast _ (extractStridedSlice S1x1600000 ![1, 0] a1 slices_S2x1600000_S1x1600000_1_0) shapeCasts_S1x1600000_S1600000) (broadcastInDim S1600000 ![] bcast_S_S1600000 (constantI S_ 32 0#32))) (addi (shapeCast _ (extractStridedSlice S1x1600000 ![1, 0] a1 slices_S2x1600000_S1x1600000_1_0) shapeCasts_S1x1600000_S1600000) (broadcastInDim S1600000 ![] bcast_S_S1600000 (constantI S_ 32 50000#32))) (shapeCast _ (extractStridedSlice S1x1600000 ![1, 0] a1 slices_S2x1600000_S1x1600000_1_0) shapeCasts_S1x1600000_S1600000))))⟩, ⟨S1600000x32, a2⟩] concatenates_S1600000x32_S1600000x32_S1600000x64_d1) a5) (broadcastInDim S1600000x64 ![0, 1] bcast_S1x64_S1600000x64_0_1 (broadcastInDim S1x64 ![1] bcast_S64_S1x64_1 a6))) (broadcastInDim S1600000x64 ![] bcast_S_S1600000x64 (constant S_ .f32 0x00000000#32))) a7) (broadcastInDim S1600000x64 ![0, 1] bcast_S1x64_S1600000x64_0_1 (broadcastInDim S1x64 ![1] bcast_S64_S1x64_1 a8))) (broadcastInDim S1600000x64 ![] bcast_S_S1600000x64 (constant S_ .f32 0x00000000#32)))) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![0, 0] a1 slices_S2x1600000_S1x1600000_0_0) shapeCasts_S1x1600000_S1600000)) (broadcastInDim S1600000 ![] bcast_S_S1600000 (constant S_ .f32 0x3F800000#32))) (broadcastInDim S50000 ![] bcast_S_S50000 (constant S_ .f32 0x3F800000#32))))))⟩, ⟨S50000x16, (Host.gather gather_S64x16_S50000x1_S50000x16_1_0_n_n_0_1_116 a3 (broadcastInDim S50000x1 ![0] bcast_S50000_S50000x1_0 (select (cmpi .slt a4 (broadcastInDim S50000 ![] bcast_S_S50000 (constantI S_ 32 0#32))) (addi a4 (broadcastInDim S50000 ![] bcast_S_S50000 (constantI S_ 32 64#32))) a4)))⟩] concatenates_S50000x32_S50000x64_S50000x16_S50000x112_d1) a9) (broadcastInDim S50000x64 ![0, 1] bcast_S1x64_S50000x64_0_1 (broadcastInDim S1x64 ![1] bcast_S64_S1x64_1 a10))) (broadcastInDim S50000x64 ![] bcast_S_S50000x64 (constant S_ .f32 0x00000000#32))) a11) (broadcastInDim S50000x32 ![0, 1] bcast_S1x32_S50000x32_0_1 (broadcastInDim S1x32 ![1] bcast_S32_S1x32_1 a12))
      = Cert.Spec.nodeSpec a0 (meanBy (rowIdx a1) (Cert.Spec.edgeSpec (Host.gather gather_S50000x32_S1600000x1_S1600000x32_1_0_n_n_0_1_132 a0 (colIdx a1)) a2 a5 a6 a7 a8)) (Host.gather gather_S64x16_S50000x1_S50000x16_1_0_n_n_0_1_116 a3 (batIdx a4)) a9 a10 a11 a12 := by
  rw [ref_edge, ref_node]

/-- THE REFERENCE'S RUN OVER THE SPECIFICATION: every weakly fair execution of the reference terminates with its result
    the node stage's specification of the arguments and the host steps between the stages, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = Cert.Spec.nodeSpec (m ((c.tc : Thread nD τ).loc main_arg0)) (meanBy (rowIdx (m ((c.tc : Thread nD τ).loc main_arg1))) (Cert.Spec.edgeSpec (Host.gather gather_S50000x32_S1600000x1_S1600000x32_1_0_n_n_0_1_132 (m ((c.tc : Thread nD τ).loc main_arg0)) (colIdx (m ((c.tc : Thread nD τ).loc main_arg1)))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)))) (Host.gather gather_S64x16_S50000x1_S50000x16_1_0_n_n_0_1_116 (m ((c.tc : Thread nD τ).loc main_arg3)) (batIdx (m ((c.tc : Thread nD τ).loc main_arg4)))) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (ref_main _ _ _ _ _ _ _ _ _ _ _ _ _), (h c).2⟩)
    (Cert.ReferenceIdeal.Value.run (F := Ideal) m ρ)

end Cert.ReferenceIdeal.RefValue

end
-- ==== Proof.EdgePay.lean ====
/-
  The edge stage's block arithmetic read at an entry.

  One grid point of the edge stage holds 16000 consecutive edges. Its arithmetic — two affine layers with rectifiers
  over the side-by-side rows [x_col ‖ e] — read at entry (p, q) of the block is the edge stage's entry (r, q) of the
  whole arrays, as soon as row p of each row-wise block is row r of its array and the two bias rows are the biases.
-/
import proofs.«416993_j73959336837503_1_alg».proof.Proof.Gen.KernelIdeal.Skeleton
import proofs.«416993_j73959336837503_1_alg».proof.Proof.Spec
import proofs.«416993_j73959336837503_1_alg».proof.Proof.LibMatmul
import Idealize.ShloMosaic.Lib.ValueIdx
import Idealize.ShloMosaic.Lib.Pipeline.Value
import Idealize.ShloMosaic.PureOps.Ideal.Laws

noncomputable section

namespace Cert.KernelIdeal.EdgePay

open Idealize.ShloMosaic Idealize.ShloMosaic.ValueIdx Cert.KernelIdeal Cert.KernelIdeal.Gen

/-- The block's product has the plain dimension numbers of a 16000×64 by 64×64 product. -/
theorem dot_edge : dot_S16000x64_S64x64_S16000x64_1_0_0_1_n_n = DotDims.plain 16000 64 64 := rfl

/-- The block's two row-wise inputs laid side by side, read at (p, l). -/
theorem cat_apply (x0 x1 : Vec Ideal S16000x32 .f32) (p : Fin 16000) (l : Fin 64) :
    concatenate S16000x64 1 [⟨S16000x32, x0⟩, ⟨S16000x32, x1⟩] concatenates_S16000x32_S16000x32_S16000x64_d1 (ix2 p l)
      = Cert.Spec.cat2 (fun l' => x0 (ix2 p l')) (fun l' => x1 (ix2 p l')) l := by
  unfold Cert.Spec.cat2
  split
  · rename_i h
    refine concatenate_pair_apply_left (1 : Fin 2) x0 x1 _ (ix2 p l) rfl (ix2 p ⟨l.val, h⟩) ?_
    intro b
    match b with
    | ⟨0, _⟩ => rfl
    | ⟨1, _⟩ => rfl
  · rename_i h
    refine concatenate_pair_apply_right (1 : Fin 2) x0 x1 _ (ix2 p l) rfl rfl (ix2 p ⟨l.val - 32, by omega⟩) ?_ ?_
    · intro b hb
      match b with
      | ⟨0, _⟩ => rfl
      | ⟨1, _⟩ => exact absurd rfl hb
    · show (l.val - 32) + 32 = l.val
      omega

/-- One affine layer of the block at (p, k): the row of a times column k of w, plus the bias row's entry k. -/
theorem layer_apply (a : FVec Ideal S16000x64 .bf16) (w : FVec Ideal S64x64 .bf16) (c : Vec Ideal S1x64 .f32) (p : Fin 16000) (k : Fin 64) :
    addf (matmul dot_S16000x64_S64x64_S16000x64_1_0_0_1_n_n none a w (constant S16000x64 .f32 0x00000000#32))
        (broadcastTo S16000x64 (shapeCast S1x64 c shapeCasts_S1x64_S1x64) broadcasts_S1x64_S16000x64) (ix2 p k)
      = (∑ l : Fin 64, a (ix2 p l) * w (ix2 l k)) + c (ix2 0 k) := by
  rw [addf_apply, shapeCast_self]
  refine congrArg₂ (· + ·) ?_ ?_
  · exact Cert.Matmul.matmul_plain_apply (M := 16000) (K := 64) (N := 64) none a w p k
  · refine broadcastTo_apply c _ (ix2 p k) (ix2 0 k) ?_
    intro b
    match b with
    | ⟨0, _⟩ => rfl
    | ⟨1, _⟩ => rfl

/-- The block's arithmetic at (p, q) is the edge stage's entry (r, q), when row p of each row-wise block is row r of its
    array and the bias rows hold the biases. -/
theorem pay_apply (x0 x1 : Vec Ideal S16000x32 .f32) (w1 : Vec Ideal S64x64 .f32) (c1 : Vec Ideal S1x64 .f32)
    (w2 : Vec Ideal S64x64 .f32) (c2 : Vec Ideal S1x64 .f32)
    (X E : FVec Ideal ⟨2, ![1600000, 32]⟩ .f32) (b1 b2 : FVec Ideal ⟨1, ![64]⟩ .f32) (r : Fin 1600000) (p : Fin 16000) (q : Fin 64)
    (hx : ∀ l : Fin 32, x0 (ix2 p l) = X (ix2 r l)) (he : ∀ l : Fin 32, x1 (ix2 p l) = E (ix2 r l))
    (h1 : ∀ k : Fin 64, c1 (ix2 0 k) = b1 (ix1 k)) (h2 : ∀ k : Fin 64, c2 (ix2 0 k) = b2 (ix1 k)) :
    k0_pay1 (F := Ideal) x0 x1 w1 c1 w2 c2 (ix2 p q) = Cert.Spec.edgeAt X E w1 b1 w2 b2 r q := by
  unfold k0_pay1
  rw [maximumf_apply, layer_apply]
  unfold Cert.Spec.edgeAt Cert.Spec.relu Cert.Spec.lin
  refine congrArg₂ max (congrArg₂ (· + ·) (Finset.sum_congr rfl fun k _ => congrArg₂ (· * ·) ?_ rfl) (h2 q)) Ideal.ofBits_zero_f32
  rw [truncf_apply, maximumf_apply, layer_apply]
  refine congrArg₂ max (congrArg₂ (· + ·) (Finset.sum_congr rfl fun l _ => congrArg₂ (· * ·) ?_ rfl) (h1 k)) Ideal.ofBits_zero_f32
  rw [truncf_apply, shapeCast_self, cat_apply]
  exact congrArg₂ (fun a b => Cert.Spec.cat2 a b l) (funext hx) (funext he)

end Cert.KernelIdeal.EdgePay

end
-- ==== Proof.EdgeValue.lean ====
/-
  The edge stage's output array after its region.

  Grid point t of the edge stage reads rows 16000 t … 16000 t + 15999 of the gathered node rows and of the edge
  attributes, the four parameter arrays whole, and writes back rows 16000 t … of the output. What point t writes is
  therefore block t of the edge stage of the whole arrays, and the 100 blocks tile the 1600000 rows: the output array
  ends holding the edge stage of the arrays the region finds.
-/
import proofs.«416993_j73959336837503_1_alg».proof.Proof.Gen.KernelIdeal.Frame
import proofs.«416993_j73959336837503_1_alg».proof.Proof.EdgePay
import Idealize.ShloMosaic.Lib.Pipeline.Value

set_option maxRecDepth 16384

noncomputable section

namespace Cert.KernelIdeal.EdgeValue

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-wise windows sit at block (t, 0), the parameters at (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the arrays that row p of point t's blocks is. -/
def rowOf (t : Fin cfg0.N) (p : Fin 16000) : Fin 1600000 :=
  ⟨t.val * 16000 + p.val, by have := t.isLt; have := p.isLt; have h : cfg0.N = 100 := N_0; omega⟩

/-- Row p of the gathered node rows' block at point t is row 16000 t + p of the array. -/
theorem read_xcol (c : Dev nD) (t : Fin cfg0.N) (p : Fin 16000) (l : Fin 32) :
    iblk0 V c 0 t (ix2 p l) = V c main_v4 (ix2 (rowOf t p) l) := by
  obtain ⟨e0, e1, -⟩ := index_maps t
  show V c main_v4 (((cfg0.win 0).blk t).view.emb (ix2 p l)) = V c main_v4 (ix2 (rowOf t p) l)
  refine congrArg (V c main_v4) (funext fun a => Fin.ext ?_)
  match a with
  | ⟨0, _⟩ => show win0_0.index t (0 : Fin 2) * 16000 + 1 * p.val = t.val * 16000 + p.val; omega
  | ⟨1, _⟩ => show win0_0.index t (1 : Fin 2) * 32 + 1 * l.val = l.val; omega

/-- Row p of the edge attributes' block at point t is row 16000 t + p of the array. -/
theorem read_eattr (c : Dev nD) (t : Fin cfg0.N) (p : Fin 16000) (l : Fin 32) :
    iblk0 V c 1 t (ix2 p l) = V c main_arg2 (ix2 (rowOf t p) l) := by
  obtain ⟨-, -, e0, e1, -⟩ := index_maps t
  show V c main_arg2 (((cfg0.win 1).blk t).view.emb (ix2 p l)) = V c main_arg2 (ix2 (rowOf t p) l)
  refine congrArg (V c main_arg2) (funext fun a => Fin.ext ?_)
  match a with
  | ⟨0, _⟩ => show win0_1.index t (0 : Fin 2) * 16000 + 1 * p.val = t.val * 16000 + p.val; omega
  | ⟨1, _⟩ => show win0_1.index t (1 : Fin 2) * 32 + 1 * l.val = l.val; omega

/-- The first weight matrix's block is the whole matrix at every point. -/
theorem read_w1 (c : Dev nD) (t : Fin cfg0.N) : iblk0 V c 2 t = V c main_arg5 := by
  obtain ⟨-, -, -, -, e0, e1, -⟩ := index_maps t
  funext j
  show V c main_arg5 (((cfg0.win 2).blk t).view.emb j) = V c main_arg5 j
  refine congrArg (V c main_arg5) (funext fun a => Fin.ext ?_)
  match a with
  | ⟨0, _⟩ => show win0_2.index t (0 : Fin 2) * 64 + 1 * (j 0).val = (j 0).val; omega
  | ⟨1, _⟩ => show win0_2.index t (1 : Fin 2) * 64 + 1 * (j 1).val = (j 1).val; omega

/-- The second weight matrix's block is the whole matrix at every point. -/
theorem read_w2 (c : Dev nD) (t : Fin cfg0.N) : iblk0 V c 4 t = V c main_arg7 := by
  obtain ⟨-, -, -, -, -, -, -, -, e0, e1, -⟩ := index_maps t
  funext j
  show V c main_arg7 (((cfg0.win 4).blk t).view.emb j) = V c main_arg7 j
  refine congrArg (V c main_arg7) (funext fun a => Fin.ext ?_)
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- The first bias row's block is the row itself. -/
theorem read_b1 (c : Dev nD) (t : Fin cfg0.N) (k : Fin 64) : iblk0 V c 3 t (ix2 0 k) = V c main_v5 (ix2 0 k) := by
  obtain ⟨-, -, -, -, -, -, e0, e1, -⟩ := index_maps t
  show V c main_v5 (((cfg0.win 3).blk t).view.emb (ix2 0 k)) = V c main_v5 (ix2 0 k)
  refine congrArg (V c main_v5) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

/-- The second bias row's block is the row itself. -/
theorem read_b2 (c : Dev nD) (t : Fin cfg0.N) (k : Fin 64) : iblk0 V c 5 t (ix2 0 k) = V c main_v6 (ix2 0 k) := by
  obtain ⟨-, -, -, -, -, -, -, -, -, -, e0, e1, -⟩ := index_maps t
  show V c main_v6 (((cfg0.win 5).blk t).view.emb (ix2 0 k)) = V c main_v6 (ix2 0 k)
  refine congrArg (V c main_v6) (funext fun a => Fin.ext ?_)
  match a with
  | ⟨0, _⟩ => show win0_5.index t (0 : Fin 2) * 1 + 1 * 0 = 0; omega
  | ⟨1, _⟩ => show win0_5.index t (1 : Fin 2) * 64 + 1 * k.val = k.val; omega

/-- The edge stage of the arrays the region finds. -/
abbrev result (c : Dev nD) : FVec Ideal ⟨2, ![1600000, 64]⟩ .f32 :=
  Cert.Spec.edgeSpec (V c main_v4) (V c main_arg2) (V c main_arg5) (fun i => V c main_v5 (ix2 0 (i 0)))
    (V c main_arg7) (fun i => V c main_v6 (ix2 0 (i 0)))

/-- What point t writes back is block t of the edge stage of the arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero zero_offsets]
  simp only [View.ld_unit_zero (S := S16000x32) zero_offsets, View.ld_unit_zero (S := S64x64) zero_offsets,
    View.ld_unit_zero (S := S1x64) zero_offsets]
  obtain ⟨-, -, -, -, -, -, -, -, -, -, -, -, e0, e1⟩ := index_maps t
  funext j
  obtain ⟨p, q, rfl⟩ : ∃ (p : Fin 16000) (q : Fin 64), j = ix2 p q := ⟨j 0, j 1, eq_ix2 j⟩
  have hemb : ((cfg0.win 6).blk t).view.emb (ix2 p q) = (ix2 (rowOf t p) q : (⟨2, ![1600000, 64]⟩ : Shape).Idx) := by
    funext a
    refine Fin.ext ?_
    match a with
    | ⟨0, _⟩ => show win0_6.index t (0 : Fin 2) * 16000 + 1 * p.val = t.val * 16000 + p.val; omega
    | ⟨1, _⟩ => show win0_6.index t (1 : Fin 2) * 64 + 1 * q.val = q.val; omega
  show k0_pay1 (iblk0 V c 0 t) (iblk0 V c 1 t) (iblk0 V c 2 t) (iblk0 V c 3 t) (iblk0 V c 4 t) (iblk0 V c 5 t) (ix2 p q)
    = result V c (((cfg0.win 6).blk t).view.emb (ix2 p q))
  rw [hemb, read_w1, read_w2]
  exact Cert.KernelIdeal.EdgePay.pay_apply (iblk0 V c 0 t) (iblk0 V c 1 t) (V c main_arg5) (iblk0 V c 3 t) (V c main_arg7) (iblk0 V c 5 t)
    (V c main_v4) (V c main_arg2) (fun i => V c main_v5 (ix2 0 (i 0))) (fun i => V c main_v6 (ix2 0 (i 0))) (rowOf t p) p q
    (read_xcol V c t p) (read_eattr V c t p) (read_b1 V c t) (read_b2 V c t)

/-- An index of the output array is in point t's block iff each coordinate is in the block's range on its axis. -/
theorem mem_blk (t : Fin cfg0.N) (i : S1600000x64.Idx) :
    i ∈ ((cfg0.win 6).blk t).view.set ↔ ∀ a : Fin 2, win0_6.index t a * S16000x64.size a ≤ (i a).val ∧ (i a).val < win0_6.index t a * S16000x64.size a + S16000x64.size a := by
  show i ∈ ((View.whole main_v7).slice (win0_6.rect t)).set ↔ _
  rw [View.set_slice_whole, Rect.mem_set_unit]
  exact Iff.rfl

/-- Every row lies in the block of the point row / 16000. -/
theorem cover (i : S1600000x64.Idx) : ∃ t : Fin cfg0.N, (cfg0.win 6).flush t = true ∧ i ∈ ((cfg0.win 6).blk t).view.set := by
  have hi0 : (i 0).val < 1600000 := (i 0).isLt
  have hi1 : (i 1).val < 64 := (i 1).isLt
  have hN : cfg0.N = 100 := N_0
  let t : Fin cfg0.N := ⟨(i 0).val / 16000, by omega⟩
  obtain ⟨-, -, -, -, -, -, -, -, -, -, -, -, e0, e1⟩ := index_maps t
  have ht : t.val = (i 0).val / 16000 := rfl
  refine ⟨t, flush0_6 t, ?_⟩
  rw [mem_blk]
  intro a
  match a with
  | ⟨0, _⟩ => show win0_6.index t (0 : Fin 2) * 16000 ≤ (i 0).val ∧ (i 0).val < win0_6.index t (0 : Fin 2) * 16000 + 16000; omega
  | ⟨1, _⟩ => show win0_6.index t (1 : Fin 2) * 64 ≤ (i 1).val ∧ (i 1).val < win0_6.index t (1 : Fin 2) * 64 + 64; omega

/-- THE OUTPUT ARRAY after the region: the edge stage of the arrays the region finds. -/
theorem final (c : Dev nD) : (dat0 V c).arrAt 6 cfg0.N = result V c :=
  (dat0 V c).arrAt_eq_of_cover 6 (result V c) (fun t _ => flushed_eq V c t) cover

end Cert.KernelIdeal.EdgeValue

end
-- ==== Proof.NodePay.lean ====
/-
  The node stage's block arithmetic read at one entry.

  A block of 10000 rows of the node stage computes, from its rows of x (32 entries), agg (64 entries) and u_b (16 entries),
  the weights and the two bias rows, the value  relu ([x ‖ agg ‖ u_b] · W2a + b2a) · W2b + b2b.  Read at row p and column q
  this is the specification's entry (r, q) as soon as row p of each row-wise block is row r of the whole array and the
  bias rows are the bias vectors: the changes of float format are the identity on extended reals, the products into a
  zero accumulator are plain sums, the three blocks laid side by side read the piece their column falls in, and a bias
  row laid under every row reads its own column.
-/
import proofs.«416993_j73959336837503_1_alg».proof.Proof.Gen.KernelIdeal.Skeleton
import proofs.«416993_j73959336837503_1_alg».proof.Proof.Spec
import proofs.«416993_j73959336837503_1_alg».proof.Proof.LibMatmul
import Idealize.ShloMosaic.Lib.Pipeline.Value
import Idealize.ShloMosaic.Lib.ValueIdx
import Idealize.ShloMosaic.PureOps.Ideal.Laws

noncomputable section

namespace Cert.KernelIdeal.NodePay

open Idealize.ShloMosaic Idealize.ShloMosaic.ValueIdx Cert.KernelIdeal Cert.KernelIdeal.Gen

/-- The first product's dimension numbers are those of a plain 10000×112 by 112×64 product. -/
theorem dims1_eq : dot_S10000x112_S112x64_S10000x64_1_0_0_1_n_n = DotDims.plain 10000 112 64 := rfl

/-- The second product's dimension numbers are those of a plain 10000×64 by 64×32 product. -/
theorem dims2_eq : dot_S10000x64_S64x32_S10000x32_1_0_0_1_n_n = DotDims.plain 10000 64 32 := rfl

/-- A bias row of 64 entries laid under every row of a 10000×64 block reads its own column. -/
theorem biasRow64 (c : FVec Ideal S1x64 .f32) (hc : S1x64.ShapeCasts S1x64) (hb : S1x64.Broadcasts S10000x64)
    (p : Fin 10000) (k : Fin 64) :
    broadcastTo S10000x64 (shapeCast S1x64 c hc) hb (ix2 p k) = c (ix2 0 k) := by
  rw [shapeCast_self]
  exact broadcastTo_apply c hb (ix2 p k) (ix2 0 k) (fun a => by match a with | ⟨0, _⟩ => rfl | ⟨1, _⟩ => rfl)

/-- A bias row of 32 entries laid under every row of a 10000×32 block reads its own column. -/
theorem biasRow32 (c : FVec Ideal S1x32 .f32) (hc : S1x32.ShapeCasts S1x32) (hb : S1x32.Broadcasts S10000x32)
    (p : Fin 10000) (q : Fin 32) :
    broadcastTo S10000x32 (shapeCast S1x32 c hc) hb (ix2 p q) = c (ix2 0 q) := by
  rw [shapeCast_self]
  exact broadcastTo_apply c hb (ix2 p q) (ix2 0 q) (fun a => by match a with | ⟨0, _⟩ => rfl | ⟨1, _⟩ => rfl)

/-- Three blocks of 32, 64 and 16 columns laid side by side, read at row p and column l: the piece the column falls in. -/
theorem cat3_apply (x0 : FVec Ideal S10000x32 .f32) (x1 : FVec Ideal S10000x64 .f32) (x2 : FVec Ideal S10000x16 .f32)
    (h : Shape.Concatenates [S10000x32, S10000x64, S10000x16] S10000x112 1) (p : Fin 10000) (l : Fin 112) :
    concatenate S10000x112 1 [⟨S10000x32, x0⟩, ⟨S10000x64, x1⟩, ⟨S10000x16, x2⟩] h (ix2 p l)
      = Cert.Spec.cat3 (fun l => x0 (ix2 p l)) (fun l => x1 (ix2 p l)) (fun l => x2 (ix2 p l)) l := by
  unfold Cert.Spec.cat3
  by_cases h1 : l.val < 32
  · rw [dif_pos h1]
    exact concatenate_apply_piece (t := S10000x112) 1 [⟨S10000x32, x0⟩, ⟨S10000x64, x1⟩, ⟨S10000x16, x2⟩] h (ix2 p l) 0 (Nat.zero_lt_succ _) S10000x32 x0 rfl rfl 0 rfl
      (ix2 p ⟨l.val, h1⟩) (fun b hb => by match b with | ⟨0, _⟩ => rfl | ⟨1, _⟩ => exact absurd rfl hb)
      (by show 0 + l.val = l.val; omega)
  · rw [dif_neg h1]
    by_cases h2 : l.val < 96
    · rw [dif_pos h2]
      exact concatenate_apply_piece (t := S10000x112) 1 [⟨S10000x32, x0⟩, ⟨S10000x64, x1⟩, ⟨S10000x16, x2⟩] h (ix2 p l) 1 (Nat.succ_lt_succ (Nat.zero_lt_succ _)) S10000x64 x1 rfl rfl 32 rfl
        (ix2 p ⟨l.val - 32, by omega⟩) (fun b hb => by match b with | ⟨0, _⟩ => rfl | ⟨1, _⟩ => exact absurd rfl hb)
        (by show 32 + (l.val - 32) = l.val; omega)
    · rw [dif_neg h2]
      exact concatenate_apply_piece (t := S10000x112) 1 [⟨S10000x32, x0⟩, ⟨S10000x64, x1⟩, ⟨S10000x16, x2⟩] h (ix2 p l) 2 (Nat.succ_lt_succ (Nat.succ_lt_succ (Nat.zero_lt_succ _))) S10000x16 x2 rfl rfl 96 rfl
        (ix2 p ⟨l.val - 96, by omega⟩) (fun b hb => by match b with | ⟨0, _⟩ => rfl | ⟨1, _⟩ => exact absurd rfl hb)
        (by show 96 + (l.val - 96) = l.val; omega)

/-- THE BLOCK'S VALUE AT (p, q) is the specification's entry (r, q), when row p of each row-wise block is row r of its
    array and the bias rows are the bias vectors. -/
theorem pay_apply (x0 : Vec Ideal S10000x32 .f32) (x1 : Vec Ideal S10000x64 .f32) (x2 : Vec Ideal S10000x16 .f32)
    (w1 : Vec Ideal S112x64 .f32) (c1 : Vec Ideal S1x64 .f32) (w2 : Vec Ideal S64x32 .f32) (c2 : Vec Ideal S1x32 .f32)
    (X : FVec Ideal ⟨2, ![50000, 32]⟩ .f32) (A : FVec Ideal ⟨2, ![50000, 64]⟩ .f32) (U : FVec Ideal ⟨2, ![50000, 16]⟩ .f32)
    (b1 : FVec Ideal ⟨1, ![64]⟩ .f32) (b2 : FVec Ideal ⟨1, ![32]⟩ .f32)
    (r : Fin 50000) (p : Fin 10000) (q : Fin 32)
    (hx : ∀ l : Fin 32, x0 (ix2 p l) = X (ix2 r l)) (ha : ∀ l : Fin 64, x1 (ix2 p l) = A (ix2 r l))
    (hu : ∀ l : Fin 16, x2 (ix2 p l) = U (ix2 r l))
    (h1 : ∀ k : Fin 64, c1 (ix2 0 k) = b1 (ix1 k)) (h2 : ∀ k : Fin 32, c2 (ix2 0 k) = b2 (ix1 k)) :
    Cert.KernelIdeal.Gen.k1_pay1 (F := Ideal) x0 x1 x2 w1 c1 w2 c2 (ix2 p q) = Cert.Spec.nodeAt X A U w1 b1 w2 b2 r q := by
  unfold Cert.KernelIdeal.Gen.k1_pay1 Cert.Spec.nodeAt Cert.Spec.lin
  refine congrArg₂ (· + ·) ?_ ((biasRow32 c2 _ _ p q).trans (h2 q))
  rw [dims2_eq]
  refine (Cert.Matmul.matmul_plain_apply none _ _ p q).trans ?_
  refine Finset.sum_congr rfl fun k _ => ?_
  refine congrArg₂ (· * ·) ?_ rfl
  show max (_ + _) (Ideal.ofBits .f32 0x00000000#32) = Cert.Spec.relu _
  rw [Ideal.ofBits_zero_f32]
  unfold Cert.Spec.relu
  refine congrArg (max · 0) ?_
  refine congrArg₂ (· + ·) ?_ ((biasRow64 c1 _ _ p k).trans (h1 k))
  rw [dims1_eq]
  refine (Cert.Matmul.matmul_plain_apply none _ _ p k).trans ?_
  refine Finset.sum_congr rfl fun l _ => ?_
  refine congrArg₂ (· * ·) ?_ rfl
  refine (cat3_apply x0 (shapeCast S10000x64 x1 shapeCasts_S10000x64_S10000x64) (shapeCast S10000x16 x2 shapeCasts_S10000x16_S10000x16)
    concatenates_S10000x32_S10000x64_S10000x16_S10000x112_d1 p l).trans ?_
  rw [shapeCast_self, shapeCast_self]
  simp only [hx, ha, hu]

end Cert.KernelIdeal.NodePay

end
-- ==== Proof.NodeValue.lean ====
/-
  The node stage's output array after its five blocks of rows.

  The second region walks the 50000 rows in five blocks of 10000. At block t the row-wise operands x, agg and u_b are
  read at rows 10000·t … 10000·t + 9999, the two weight matrices and the two bias rows whole, and the block written back
  is the block arithmetic of those. Read at (p, q) that arithmetic is the specification's entry (10000·t + p, q); so each
  block written back is block t of the specification's whole array, the five blocks cover the rows, and the output array
  ends holding the specification's whole array of the region's entry contents.
-/
import proofs.«416993_j73959336837503_1_alg».proof.Proof.Gen.KernelIdeal.Frame
import proofs.«416993_j73959336837503_1_alg».proof.Proof.NodePay
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.NodeValue

open Cert.KernelIdeal Cert.KernelIdeal.Gen

variable (V : (c : Dev nD) → (b : Ref sig .tc) → Buf (Elt Ideal) ((c : Thread nD τ).loc b))

theorem zeroOff : (![0, 0] : Fin 2 → Nat) = fun _ => 0 := funext fun a => by fin_cases a <;> rfl

/-- The block arithmetic at (p, q) as the specification's whole array at (r, q), over variables: the row-wise blocks
    read row r of their arrays at row p, the weight blocks are the weight arrays, the bias blocks the bias rows. -/
theorem pay_at (x0 : Vec Ideal S10000x32 .f32) (x1 : Vec Ideal S10000x64 .f32) (x2 : Vec Ideal S10000x16 .f32)
    (x3 : Vec Ideal S112x64 .f32) (x4 : Vec Ideal S1x64 .f32) (x5 : Vec Ideal S64x32 .f32) (x6 : Vec Ideal S1x32 .f32)
    (X : FVec Ideal ⟨2, ![50000, 32]⟩ .f32) (A : FVec Ideal ⟨2, ![50000, 64]⟩ .f32) (U : FVec Ideal ⟨2, ![50000, 16]⟩ .f32)
    (W1 : FVec Ideal ⟨2, ![112, 64]⟩ .f32) (B1 : FVec Ideal ⟨2, ![1, 64]⟩ .f32)
    (W2 : FVec Ideal ⟨2, ![64, 32]⟩ .f32) (B2 : FVec Ideal ⟨2, ![1, 32]⟩ .f32)
    (r : Fin 50000) (p : Fin 10000) (q : Fin 32)
    (hx : ∀ l : Fin 32, x0 (ix2 p l) = X (ix2 r l)) (ha : ∀ l : Fin 64, x1 (ix2 p l) = A (ix2 r l))
    (hu : ∀ l : Fin 16, x2 (ix2 p l) = U (ix2 r l))
    (hw1 : x3 = W1) (hb1 : x4 = B1) (hw2 : x5 = W2) (hb2 : x6 = B2) :
    k1_pay1 (F := Ideal) x0 x1 x2 x3 x4 x5 x6 (ix2 p q)
      = Cert.Spec.nodeSpec X A U W1 (fun i : (⟨1, ![64]⟩ : Shape).Idx => B1 (ix2 0 (i 0))) W2
          (fun i : (⟨1, ![32]⟩ : Shape).Idx => B2 (ix2 0 (i 0))) (ix2 r q) := by
  subst hw1 hb1 hw2 hb2
  exact NodePay.pay_apply x0 x1 x2 x3 x4 x5 x6 X A U _ _ r p q hx ha hu (fun _ => rfl) (fun _ => rfl)

/-- The windows' block indices over the five points: the row-wise windows and the output sit at block (t, 0), the whole
    windows at block (0, 0). -/
theorem blockIdx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Block t of x at (p, l) is x at row 10000·t + p. -/
theorem read_x (c : Dev nD) (t : Fin cfg1.N) (p : Fin 10000) (l : Fin 32) (r : Fin 50000) (hr : r.val = t.val * 10000 + p.val) :
    (iblk1 (F := Ideal) V c 0 t : Vec Ideal S10000x32 .f32) (ix2 p l) = (V c main_arg0 : FVec Ideal ⟨2, ![50000, 32]⟩ .f32) (ix2 r l) := by
  unfold iblk1
  show V c main_arg0 (((cfg1.win 0).blk t).view.emb (ix2 p l)) = V c main_arg0 (ix2 r l)
  refine congrArg _ (funext fun a => Fin.ext ?_)
  obtain ⟨⟨e0, e1⟩, -⟩ := blockIdx t
  match a with
  | ⟨0, _⟩ => show win1_0.index t (0 : Fin 2) * 10000 + 1 * p.val = r.val; rw [e0, hr]; omega
  | ⟨1, _⟩ => show win1_0.index t (1 : Fin 2) * 32 + 1 * l.val = l.val; rw [e1]; omega

/-- Block t of agg at (p, l) is agg at row 10000·t + p. -/
theorem read_agg (c : Dev nD) (t : Fin cfg1.N) (p : Fin 10000) (l : Fin 64) (r : Fin 50000) (hr : r.val = t.val * 10000 + p.val) :
    (iblk1 (F := Ideal) V c 1 t : Vec Ideal S10000x64 .f32) (ix2 p l) = (V c main_v19 : FVec Ideal ⟨2, ![50000, 64]⟩ .f32) (ix2 r l) := by
  unfold iblk1
  show V c main_v19 (((cfg1.win 1).blk t).view.emb (ix2 p l)) = V c main_v19 (ix2 r l)
  refine congrArg _ (funext fun a => Fin.ext ?_)
  obtain ⟨-, ⟨e0, e1⟩, -⟩ := blockIdx t
  match a with
  | ⟨0, _⟩ => show win1_1.index t (0 : Fin 2) * 10000 + 1 * p.val = r.val; rw [e0, hr]; omega
  | ⟨1, _⟩ => show win1_1.index t (1 : Fin 2) * 64 + 1 * l.val = l.val; rw [e1]; omega

/-- Block t of u_b at (p, l) is u_b at row 10000·t + p. -/
theorem read_u (c : Dev nD) (t : Fin cfg1.N) (p : Fin 10000) (l : Fin 16) (r : Fin 50000) (hr : r.val = t.val * 10000 + p.val) :
    (iblk1 (F := Ideal) V c 2 t : Vec Ideal S10000x16 .f32) (ix2 p l) = (V c main_v20 : FVec Ideal ⟨2, ![50000, 16]⟩ .f32) (ix2 r l) := by
  unfold iblk1
  show V c main_v20 (((cfg1.win 2).blk t).view.emb (ix2 p l)) = V c main_v20 (ix2 r l)
  refine congrArg _ (funext fun a => Fin.ext ?_)
  obtain ⟨-, -, ⟨e0, e1⟩, -⟩ := blockIdx t
  match a with
  | ⟨0, _⟩ => show win1_2.index t (0 : Fin 2) * 10000 + 1 * p.val = r.val; rw [e0, hr]; omega
  | ⟨1, _⟩ => show win1_2.index t (1 : Fin 2) * 16 + 1 * l.val = l.val; rw [e1]; omega

/-- The first weight matrix's one block is the matrix. -/
theorem whole_w1 (c : Dev nD) (t : Fin cfg1.N) :
    (iblk1 (F := Ideal) V c 3 t : Vec Ideal S112x64 .f32) = (V c main_arg9 : FVec Ideal ⟨2, ![112, 64]⟩ .f32) := by
  unfold iblk1
  funext y
  show V c main_arg9 (((cfg1.win 3).blk t).view.emb y) = V c main_arg9 y
  refine congrArg _ (funext fun a => Fin.ext ?_)
  obtain ⟨-, -, -, ⟨e0, e1⟩, -⟩ := blockIdx t
  match a with
  | ⟨0, _⟩ => show win1_3.index t (0 : Fin 2) * 112 + 1 * (y 0).val = (y 0).val; rw [e0]; omega
  | ⟨1, _⟩ => show win1_3.index t (1 : Fin 2) * 64 + 1 * (y 1).val = (y 1).val; rw [e1]; omega

/-- The first bias row's one block is the row. -/
theorem whole_b1 (c : Dev nD) (t : Fin cfg1.N) :
    (iblk1 (F := Ideal) V c 4 t : Vec Ideal S1x64 .f32) = (V c main_v21 : FVec Ideal ⟨2, ![1, 64]⟩ .f32) := by
  unfold iblk1
  funext y
  show V c main_v21 (((cfg1.win 4).blk t).view.emb y) = V c main_v21 y
  refine congrArg _ (funext fun a => Fin.ext ?_)
  obtain ⟨-, -, -, -, ⟨e0, e1⟩, -⟩ := blockIdx t
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The second weight matrix's one block is the matrix. -/
theorem whole_w2 (c : Dev nD) (t : Fin cfg1.N) :
    (iblk1 (F := Ideal) V c 5 t : Vec Ideal S64x32 .f32) = (V c main_arg11 : FVec Ideal ⟨2, ![64, 32]⟩ .f32) := by
  unfold iblk1
  funext y
  show V c main_arg11 (((cfg1.win 5).blk t).view.emb y) = V c main_arg11 y
  refine congrArg _ (funext fun a => Fin.ext ?_)
  obtain ⟨-, -, -, -, -, ⟨e0, e1⟩, -⟩ := blockIdx t
  match a with
  | ⟨0, _⟩ => show win1_5.index t (0 : Fin 2) * 64 + 1 * (y 0).val = (y 0).val; rw [e0]; omega
  | ⟨1, _⟩ => show win1_5.index t (1 : Fin 2) * 32 + 1 * (y 1).val = (y 1).val; rw [e1]; omega

/-- The second bias row's one block is the row. -/
theorem whole_b2 (c : Dev nD) (t : Fin cfg1.N) :
    (iblk1 (F := Ideal) V c 6 t : Vec Ideal S1x32 .f32) = (V c main_v22 : FVec Ideal ⟨2, ![1, 32]⟩ .f32) := by
  unfold iblk1
  funext y
  show V c main_v22 (((cfg1.win 6).blk t).view.emb y) = V c main_v22 y
  refine congrArg _ (funext fun a => Fin.ext ?_)
  obtain ⟨-, -, -, -, -, -, ⟨e0, e1⟩, -⟩ := blockIdx t
  match a with
  | ⟨0, _⟩ => show win1_6.index t (0 : Fin 2) * 1 + 1 * (y 0).val = (y 0).val; rw [e0]; omega
  | ⟨1, _⟩ => show win1_6.index t (1 : Fin 2) * 32 + 1 * (y 1).val = (y 1).val; rw [e1]; omega

/-- The node stage of the region's entry contents, on whole arrays. -/
abbrev nodeOut (c : Dev nD) : FVec Ideal ⟨2, ![50000, 32]⟩ .f32 :=
  Cert.Spec.nodeSpec (V c main_arg0) (V c main_v19) (V c main_v20) (V c main_arg9)
    (fun i : (⟨1, ![64]⟩ : Shape).Idx => V c main_v21 (ix2 0 (i 0))) (V c main_arg11)
    (fun i : (⟨1, ![32]⟩ : Shape).Idx => V c main_v22 (ix2 0 (i 0)))

/-- Entry (p, q) of the output's block t sits at row 10000·t + p of the array. -/
theorem out_emb (t : Fin cfg1.N) (p : Fin 10000) (q : Fin 32) (r : Fin 50000) (hr : r.val = t.val * 10000 + p.val) :
    ((cfg1.win 7).blk t).view.emb (ix2 p q) = (ix2 r q : (⟨2, ![50000, 32]⟩ : Shape).Idx) := by
  refine funext fun a => Fin.ext ?_
  obtain ⟨-, -, -, -, -, -, -, ⟨e0, e1⟩⟩ := blockIdx t
  match a with
  | ⟨0, _⟩ => show win1_7.index t (0 : Fin 2) * 10000 + 1 * p.val = r.val; rw [e0, hr]; omega
  | ⟨1, _⟩ => show win1_7.index t (1 : Fin 2) * 32 + 1 * q.val = q.val; rw [e1]; omega

/-- WHAT POINT t WRITES BACK is block t of the node stage of the entry contents. -/
theorem flushed_eq (c : Dev nD) (t : Fin cfg1.N) :
    (dat1 (F := Ideal) V c).flushed 7 t = ((cfg1.win 7).blk t).view.read (Elt Ideal) (nodeOut V c) := by
  show (cfg1.win 7).cut (grid1.coords t) ((dat1 V c).after 7 t) = _
  rw [after1_7]
  unfold out1_7
  rw [View.canon_unit_zero zeroOff]
  simp only [View.ld_unit_zero (S := S10000x32) zeroOff, View.ld_unit_zero (S := S10000x64) zeroOff,
    View.ld_unit_zero (S := S10000x16) zeroOff, View.ld_unit_zero (S := S112x64) zeroOff,
    View.ld_unit_zero (S := S1x64) zeroOff, View.ld_unit_zero (S := S64x32) zeroOff,
    View.ld_unit_zero (S := S1x32) zeroOff]
  funext j
  obtain ⟨p, q, rfl⟩ : ∃ (p : Fin 10000) (q : Fin 32), j = ix2 p q := ⟨j 0, j 1, eq_ix2 j⟩
  have hN : grid1.N = 5 := N_1
  have ht : t.val < 5 := hN ▸ t.isLt
  have hrow : t.val * 10000 + p.val < 50000 := by have := p.isLt; omega
  show k1_pay1 (F := Ideal) (iblk1 V c 0 t) (iblk1 V c 1 t) (iblk1 V c 2 t) (iblk1 V c 3 t) (iblk1 V c 4 t) (iblk1 V c 5 t)
      (iblk1 V c 6 t) (ix2 p q) = nodeOut V c (((cfg1.win 7).blk t).view.emb (ix2 p q))
  rw [out_emb t p q ⟨t.val * 10000 + p.val, hrow⟩ rfl]
  exact pay_at _ _ _ _ _ _ _ (V c main_arg0) (V c main_v19) (V c main_v20) (V c main_arg9) (V c main_v21) (V c main_arg11)
    (V c main_v22) ⟨t.val * 10000 + p.val, hrow⟩ p q
    (fun l => read_x V c t p l _ rfl) (fun l => read_agg V c t p l _ rfl) (fun l => read_u V c t p l _ rfl)
    (whole_w1 V c t) (whole_b1 V c t) (whole_w2 V c t) (whole_b2 V c t)

/-- An index of the output array is in point t's block iff each coordinate is in the block's range on its axis. -/
theorem mem_blk (t : Fin cfg1.N) (i : S50000x32.Idx) :
    i ∈ ((cfg1.win 7).blk t).view.set ↔ ∀ a : Fin 2, win1_7.index t a * S10000x32.size a ≤ (i a).val
      ∧ (i a).val < win1_7.index t a * S10000x32.size a + S10000x32.size a := by
  show i ∈ ((View.whole main_v23).slice (win1_7.rect t)).set ↔ _
  rw [View.set_slice_whole, Rect.mem_set_unit]
  exact Iff.rfl

/-- Row r of the output array is in the block of point r / 10000, which is written back. -/
theorem cover (i : S50000x32.Idx) :
    ∃ t : Fin cfg1.N, (cfg1.win 7).flush t = true ∧ i ∈ ((cfg1.win 7).blk t).view.set := by
  have hN : grid1.N = 5 := N_1
  have hi0 : (i 0).val < 50000 := (i 0).isLt
  have hi1 : (i 1).val < 32 := (i 1).isLt
  have hlt : (i 0).val / 10000 < cfg1.N := by show (i 0).val / 10000 < grid1.N; rw [hN]; omega
  refine ⟨⟨(i 0).val / 10000, hlt⟩, flush1_7 _, ?_⟩
  rw [mem_blk]
  obtain ⟨-, -, -, -, -, -, -, ⟨e0, e1⟩⟩ := blockIdx ⟨(i 0).val / 10000, hlt⟩
  intro a
  match a with
  | ⟨0, _⟩ =>
    show win1_7.index ⟨(i 0).val / 10000, hlt⟩ (0 : Fin 2) * 10000 ≤ (i 0).val
      ∧ (i 0).val < win1_7.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, hlt⟩ (1 : Fin 2) * 32 ≤ (i 1).val
      ∧ (i 1).val < win1_7.index ⟨(i 0).val / 10000, hlt⟩ (1 : Fin 2) * 32 + 32
    rw [e1]; omega

/-- THE OUTPUT ARRAY after the region's run is the node stage of the region's entry contents. -/
theorem final (c : Dev nD) : (dat1 (F := Ideal) V c).arrAt 7 cfg1.N = Cert.Spec.nodeSpec (V c main_arg0) (V c main_v19) (V c main_v20) (V c main_arg9) (fun i => V c main_v21 (ix2 0 (i 0))) (V c main_arg11) (fun i => V c main_v22 (ix2 0 (i 0))) :=
  (dat1 (F := Ideal) V c).arrAt_eq_of_cover 7 (nodeOut V c) (fun t _ => flushed_eq V c t) cover

end Cert.KernelIdeal.NodeValue

end
-- ==== Proof.HostChain.lean ====
/- The contents of the buffers each kernel region finds at its entry, as pure terms of the launch memory.
   Between the launch and a region the program runs straight stretches of whole-array operations (slices, reshapes,
   the two gathers with their bounds tests, the scatter-sums and the division of the mean); a stretch's effect on the
   contents is the fold of its operations, and reading that fold at one buffer gives the composition of the
   operations that feed it, applied to the contents the stretch found. Region 0 finds the gathered node features
   (rows of x taken at the column indices, a row out of range replaced by the not-a-number fill), the edge features and
   the first network's weights as launched, and its two biases reshaped to one row. Region 1 finds x and the second
   network's weights as launched, its biases reshaped to one row, the gathered graph features, and the mean over
   incoming edges: region 0's output array summed by row index and divided by the row counts floored at one. An
   argument array is read back to the launch memory because no operation and no region writes it. -/
import proofs.«416993_j73959336837503_1_alg».proof.Proof.Gen.KernelIdeal.Frame
import Idealize.ShloMosaic.Lib.StableHlo.Run

set_option maxRecDepth 16384

noncomputable section

namespace Cert.KernelIdeal.HostChain

open Idealize.ShloMosaic Idealize.ShloMosaic.TcCoe Idealize.ShloMosaic.Tactic
open Cert.KernelIdeal.Gen

variable {F : FTy → Type} [FloatOps F]
variable (m : (ℓ : Loc nD τ sig) → Buf (Elt F) ℓ) (ρ : Dev nD → PrngReg) (c : Dev nD)

/-! ## The two gather stretches over plain references

A gather stretch is stated over references that carry their tensor type; each of its operations is the plain
operation at the carried reference, the function moved along an identity of types. Stated over the plain references
the fold's reads are the bare compositions. The reduction over the unit axis is compared by its function pointwise;
every other operation agrees by computation. -/

/-- The masked-row reduction of the stretch is the same operation stated over the plain references: its function
    agrees pointwise, the transports along the references' own types being identities. -/
theorem red0_eq : (StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) : HloOp τ sig (Elt F))
    = StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)) := by
  have hf : ∀ (u : (⟨S1600000x1, .i1⟩ : BufTy).Contents (Elt F)) (v : (⟨S_, .i1⟩ : BufTy).Contents (Elt F)),
      (StableHlo.TRef.of main_call0_v12 : StableHlo.TRef sig ⟨S1600000, .i1⟩).toBuf (Host.reduce IntOp.andi
        ((StableHlo.TRef.of main_call0_v11 : StableHlo.TRef sig ⟨S1600000x1, .i1⟩).ofBuf u)
        ((StableHlo.TRef.of main_call0_c_3 : StableHlo.TRef sig ⟨S_, .i1⟩).ofBuf v) reducesTo_S1600000x1_S1600000_d1 h_S_)
      = Host.reduce IntOp.andi u v reducesTo_S1600000x1_S1600000_d1 h_S_ := by
    intro u v
    simp only [StableHlo.TRef.toBuf, StableHlo.TRef.ofBuf, cast_eq]
  exact congrArg (fun f => StableHlo.binary (τ := τ) main_call0_v11 main_call0_c_3 main_call0_v12 f) (funext fun u => funext fun v => hf u v)

/-- The 23 operations of the edge gather with its bounds test, over the plain references (each typed reference read as the reference it carries). -/
def ops01 : List (HloOp τ sig (Elt F)) :=
  [ StableHlo.nullary main_call0_c ((constantI S_ 32 0#32) : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_v3 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 ((constantI S_ 32 50000#32) : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_v3 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_v3 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 ((constantI S1 32 49999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg0 main_call0_v5 main_call0_v13 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_call0_v12 main_call0_v14 ((broadcastInDim S1600000x32 ![0] bcast_S1600000_S1600000x32_0) : (⟨S1600000, .i1⟩ : BufTy).Contents (Elt F) → (⟨S1600000x32, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1600000x32 ![] bcast_S_S1600000x32) : (⟨S_, .f32⟩ : BufTy).Contents (Elt F) → (⟨S1600000x32, .f32⟩ : BufTy).Contents (Elt F)),
    StableHlo.ternary main_call0_v14 main_call0_v13 main_call0_v15 main_v4 (select : (⟨S1600000x32, .i1⟩ : BufTy).Contents (Elt F) → (⟨S1600000x32, .f32⟩ : BufTy).Contents (Elt F) → (⟨S1600000x32, .f32⟩ : BufTy).Contents (Elt F) → (⟨S1600000x32, .f32⟩ : BufTy).Contents (Elt F)) ]

theorem hostOps0_1_eq : (hostOps0_1 : List (HloOp τ sig (Elt F))) = ops01 := by
  unfold hostOps0_1 ops01
  rw [red0_eq] <;> rfl

/-- The masked-row reduction of the stretch is the same operation stated over the plain references: its function
    agrees pointwise, the transports along the references' own types being identities. -/
theorem red1_eq : (StableHlo.TRef.binary (.of main_call1_v11 : StableHlo.TRef sig ⟨S50000x1, .i1⟩) (.of main_call1_c_3 : StableHlo.TRef sig ⟨S_, .i1⟩) (.of main_call1_v12 : StableHlo.TRef sig ⟨S50000, .i1⟩) (fun x v => Host.reduce IntOp.andi x v reducesTo_S50000x1_S50000_d1 h_S_) : HloOp τ sig (Elt F))
    = StableHlo.binary main_call1_v11 main_call1_c_3 main_call1_v12 ((fun x v => Host.reduce IntOp.andi x v reducesTo_S50000x1_S50000_d1 h_S_) : (⟨S50000x1, .i1⟩ : BufTy).Contents (Elt F) → (⟨S_, .i1⟩ : BufTy).Contents (Elt F) → (⟨S50000, .i1⟩ : BufTy).Contents (Elt F)) := by
  have hf : ∀ (u : (⟨S50000x1, .i1⟩ : BufTy).Contents (Elt F)) (v : (⟨S_, .i1⟩ : BufTy).Contents (Elt F)),
      (StableHlo.TRef.of main_call1_v12 : StableHlo.TRef sig ⟨S50000, .i1⟩).toBuf (Host.reduce IntOp.andi
        ((StableHlo.TRef.of main_call1_v11 : StableHlo.TRef sig ⟨S50000x1, .i1⟩).ofBuf u)
        ((StableHlo.TRef.of main_call1_c_3 : StableHlo.TRef sig ⟨S_, .i1⟩).ofBuf v) reducesTo_S50000x1_S50000_d1 h_S_)
      = Host.reduce IntOp.andi u v reducesTo_S50000x1_S50000_d1 h_S_ := by
    intro u v
    simp only [StableHlo.TRef.toBuf, StableHlo.TRef.ofBuf, cast_eq]
  exact congrArg (fun f => StableHlo.binary (τ := τ) main_call1_v11 main_call1_c_3 main_call1_v12 f) (funext fun u => funext fun v => hf u v)

/-- The 23 operations of the node gather with its bounds test, over the plain references. -/
def ops11 : List (HloOp τ sig (Elt F)) :=
  [ StableHlo.nullary main_call1_c ((constantI S_ 32 0#32) : (⟨S_, .i32⟩ : BufTy).Contents (Elt F)),
    StableHlo.unary main_call1_c main_call1_v0 ((broadcastInDim S50000 ![] bcast_S_S50000) : (⟨S_, .i32⟩ : BufTy).Contents (Elt F) → (⟨S50000, .i32⟩ : BufTy).Contents (Elt F)),
    StableHlo.binary main_arg4 main_call1_v0 main_call1_v1 ((cmpi .slt) : (⟨S50000, .i32⟩ : BufTy).Contents (Elt F) → (⟨S50000, .i32⟩ : BufTy).Contents (Elt F) → (⟨S50000, .i1⟩ : BufTy).Contents (Elt F)),
    StableHlo.nullary main_call1_c_0 ((constantI S_ 32 64#32) : (⟨S_, .i32⟩ : BufTy).Contents (Elt F)),
    StableHlo.unary main_call1_c_0 main_call1_v2 ((broadcastInDim S50000 ![] bcast_S_S50000) : (⟨S_, .i32⟩ : BufTy).Contents (Elt F) → (⟨S50000, .i32⟩ : BufTy).Contents (Elt F)),
    StableHlo.binary main_arg4 main_call1_v2 main_call1_v3 (addi : (⟨S50000, .i32⟩ : BufTy).Contents (Elt F) → (⟨S50000, .i32⟩ : BufTy).Contents (Elt F) → (⟨S50000, .i32⟩ : BufTy).Contents (Elt F)),
    StableHlo.ternary main_call1_v1 main_call1_v3 main_arg4 main_call1_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_call1_v4 main_call1_v5 ((broadcastInDim S50000x1 ![0] bcast_S50000_S50000x1_0) : (⟨S50000, .i32⟩ : BufTy).Contents (Elt F) → (⟨S50000x1, .i32⟩ : BufTy).Contents (Elt F)),
    StableHlo.nullary main_call1_c_1 ((constantI S1 32 63#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S50000x1 ![] bcast_S_S50000x1) : (⟨S_, .i32⟩ : BufTy).Contents (Elt F) → (⟨S50000x1, .i32⟩ : BufTy).Contents (Elt F)),
    StableHlo.binary main_call1_v5 main_call1_v6 main_call1_v7 ((cmpi .sge) : (⟨S50000x1, .i32⟩ : BufTy).Contents (Elt F) → (⟨S50000x1, .i32⟩ : BufTy).Contents (Elt F) → (⟨S50000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S50000x1 ![0, 1] bcast_S1x1_S50000x1_0_1) : (⟨S1x1, .i32⟩ : BufTy).Contents (Elt F) → (⟨S50000x1, .i32⟩ : BufTy).Contents (Elt F)),
    StableHlo.binary main_call1_v5 main_call1_v9 main_call1_v10 ((cmpi .sle) : (⟨S50000x1, .i32⟩ : BufTy).Contents (Elt F) → (⟨S50000x1, .i32⟩ : BufTy).Contents (Elt F) → (⟨S50000x1, .i1⟩ : BufTy).Contents (Elt F)),
    StableHlo.binary main_call1_v7 main_call1_v10 main_call1_v11 (andi : (⟨S50000x1, .i1⟩ : BufTy).Contents (Elt F) → (⟨S50000x1, .i1⟩ : BufTy).Contents (Elt F) → (⟨S50000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S50000x1_S50000_d1 h_S_) : (⟨S50000x1, .i1⟩ : BufTy).Contents (Elt F) → (⟨S_, .i1⟩ : BufTy).Contents (Elt F) → (⟨S50000, .i1⟩ : BufTy).Contents (Elt F)),
    StableHlo.binary main_arg3 main_call1_v5 main_call1_v13 ((fun x i => Host.gather gather_S64x16_S50000x1_S50000x16_1_0_n_n_0_1_116 x i) : (⟨S64x16, .f32⟩ : BufTy).Contents (Elt F) → (⟨S50000x1, .i32⟩ : BufTy).Contents (Elt F) → (⟨S50000x16, .f32⟩ : BufTy).Contents (Elt F)),
    StableHlo.unary main_call1_v12 main_call1_v14 ((broadcastInDim S50000x16 ![0] bcast_S50000_S50000x16_0) : (⟨S50000, .i1⟩ : BufTy).Contents (Elt F) → (⟨S50000x16, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S50000x16 ![] bcast_S_S50000x16) : (⟨S_, .f32⟩ : BufTy).Contents (Elt F) → (⟨S50000x16, .f32⟩ : BufTy).Contents (Elt F)),
    StableHlo.ternary main_call1_v14 main_call1_v13 main_call1_v15 main_v20 (select : (⟨S50000x16, .i1⟩ : BufTy).Contents (Elt F) → (⟨S50000x16, .f32⟩ : BufTy).Contents (Elt F) → (⟨S50000x16, .f32⟩ : BufTy).Contents (Elt F) → (⟨S50000x16, .f32⟩ : BufTy).Contents (Elt F)) ]

theorem hostOps1_1_eq : (hostOps1_1 : List (HloOp τ sig (Elt F))) = ops11 := by
  unfold hostOps1_1 ops11
  rw [red1_eq] <;> rfl

/-! ## One stretch over any entry contents

Each lemma reads one buffer after one stretch from arbitrary contents `X`: the stretches are then chained by
rewriting, and a large composition is never compared against another except where the two are literally the same. -/

section Stretch
variable (X : Valuation τ sig (Elt F))

/-- The edge gather with its bounds test, read off the stretch over any entry contents. -/
theorem s01_v4 : (StableHlo.after (ops01 (F := F)) X (Proc.devRef .tc main_v4) : (⟨S1600000x32, .f32⟩ : BufTy).Contents (Elt F))
    = select (broadcastInDim S1600000x32 ![0] bcast_S1600000_S1600000x32_0 (Host.reduce IntOp.andi (andi (cmpi .sge (broadcastInDim S1600000x1 ![0] bcast_S1600000_S1600000x1_0 (select (cmpi .slt (X (Proc.devRef .tc main_v3)) (broadcastInDim S1600000 ![] bcast_S_S1600000 (constantI S_ 32 0#32))) (addi (X (Proc.devRef .tc main_v3)) (broadcastInDim S1600000 ![] bcast_S_S1600000 (constantI S_ 32 50000#32))) (X (Proc.devRef .tc main_v3)))) (broadcastInDim S1600000x1 ![] bcast_S_S1600000x1 (constantI S_ 32 0#32))) (cmpi .sle (broadcastInDim S1600000x1 ![0] bcast_S1600000_S1600000x1_0 (select (cmpi .slt (X (Proc.devRef .tc main_v3)) (broadcastInDim S1600000 ![] bcast_S_S1600000 (constantI S_ 32 0#32))) (addi (X (Proc.devRef .tc main_v3)) (broadcastInDim S1600000 ![] bcast_S_S1600000 (constantI S_ 32 50000#32))) (X (Proc.devRef .tc main_v3)))) (broadcastInDim S1600000x1 ![0, 1] bcast_S1x1_S1600000x1_0_1 (broadcastInDim S1x1 ![1] bcast_S1_S1x1_1 (constantI S1 32 49999#32))))) (constantI S_ 1 1#1) reducesTo_S1600000x1_S1600000_d1 h_S_)) (Host.gather gather_S50000x32_S1600000x1_S1600000x32_1_0_n_n_0_1_132 (X (Proc.devRef .tc main_arg0)) (broadcastInDim S1600000x1 ![0] bcast_S1600000_S1600000x1_0 (select (cmpi .slt (X (Proc.devRef .tc main_v3)) (broadcastInDim S1600000 ![] bcast_S_S1600000 (constantI S_ 32 0#32))) (addi (X (Proc.devRef .tc main_v3)) (broadcastInDim S1600000 ![] bcast_S_S1600000 (constantI S_ 32 50000#32))) (X (Proc.devRef .tc main_v3))))) (broadcastInDim S1600000x32 ![] bcast_S_S1600000x32 (constant S_ .f32 0x7FC00000#32)) := by
  unfold ops01
  refine Eq.trans (b := ?mid) ?h1 ?h2
  case h1 => after_results_simp; exact rfl
  case h2 => rfl

theorem s02_v4 : StableHlo.after (hostOps0_2 (F := F)) X (Proc.devRef .tc main_v4) = X (Proc.devRef .tc main_v4) := by
  after_results_simp

theorem s00_v3 : (StableHlo.after (hostOps0 (F := F)) X (Proc.devRef .tc main_v3) : (⟨S1600000, .i32⟩ : BufTy).Contents (Elt F))
    = (shapeCast S1600000 (extractStridedSlice S1x1600000 ![1, 0] (X (Proc.devRef .tc main_arg1)) slices_S2x1600000_S1x1600000_1_0) shapeCasts_S1x1600000_S1600000) := by
  after_results_simp
  rfl

theorem s00_v1 : (StableHlo.after (hostOps0 (F := F)) X (Proc.devRef .tc main_v1) : (⟨S1600000, .i32⟩ : BufTy).Contents (Elt F))
    = (shapeCast S1600000 (extractStridedSlice S1x1600000 ![0, 0] (X (Proc.devRef .tc main_arg1)) slices_S2x1600000_S1x1600000_0_0) shapeCasts_S1x1600000_S1600000) := by
  after_results_simp
  rfl

theorem s00_arg0 : StableHlo.after (hostOps0 (F := F)) X (Proc.devRef .tc main_arg0) = X (Proc.devRef .tc main_arg0) := by
  after_results_simp

end Stretch

/-! ## Region 0's entry contents

Three stretches precede region 0: the two slices of the edge index, the edge gather, the two bias reshapes. -/

theorem V3_arg2 : Gen.V3 m ρ c main_arg2 = (m ((c.tc : Thread nD τ).loc main_arg2)) := by
  show StableHlo.after hostOps0_2 _ (Proc.devRef .tc main_arg2) = _
  after_results_simp <;> rfl
theorem V3_arg5 : Gen.V3 m ρ c main_arg5 = (m ((c.tc : Thread nD τ).loc main_arg5)) := by
  show StableHlo.after hostOps0_2 _ (Proc.devRef .tc main_arg5) = _
  after_results_simp <;> rfl
theorem V3_arg7 : Gen.V3 m ρ c main_arg7 = (m ((c.tc : Thread nD τ).loc main_arg7)) := by
  show StableHlo.after hostOps0_2 _ (Proc.devRef .tc main_arg7) = _
  after_results_simp <;> rfl
theorem V3_v5 : (Gen.V3 m ρ c main_v5 : (⟨S1x64, .f32⟩ : BufTy).Contents (Elt F)) = shapeCast S1x64 (m ((c.tc : Thread nD τ).loc main_arg6)) shapeCasts_S64_S1x64 := by
  show StableHlo.after hostOps0_2 _ (Proc.devRef .tc main_v5) = _
  after_results_simp <;> rfl
theorem V3_v6 : (Gen.V3 m ρ c main_v6 : (⟨S1x64, .f32⟩ : BufTy).Contents (Elt F)) = shapeCast S1x64 (m ((c.tc : Thread nD τ).loc main_arg8)) shapeCasts_S64_S1x64 := by
  show StableHlo.after hostOps0_2 _ (Proc.devRef .tc main_v6) = _
  after_results_simp <;> rfl

theorem V3_v4 : (Gen.V3 m ρ c main_v4 : (⟨S1600000x32, .f32⟩ : BufTy).Contents (Elt F))
    = select (broadcastInDim S1600000x32 ![0] bcast_S1600000_S1600000x32_0 (Host.reduce IntOp.andi (andi (cmpi .sge (broadcastInDim S1600000x1 ![0] bcast_S1600000_S1600000x1_0 (select (cmpi .slt (shapeCast S1600000 (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 0#32))) (addi (shapeCast S1600000 (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 50000#32))) (shapeCast S1600000 (extractStridedSlice S1x1600000 ![1, 0] (m ((c.tc : Thread nD τ).loc main_arg1)) slices_S2x1600000_S1x1600000_1_0) shapeCasts_S1x1600000_S1600000))) (broadcastInDim S1600000x1 ![] bcast_S_S1600000x1 (constantI S_ 32 0#32))) (cmpi .sle (broadcastInDim S1600000x1 ![0] bcast_S1600000_S1600000x1_0 (select (cmpi .slt (shapeCast S1600000 (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 0#32))) (addi (shapeCast S1600000 (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 50000#32))) (shapeCast S1600000 (extractStridedSlice S1x1600000 ![1, 0] (m ((c.tc : Thread nD τ).loc main_arg1)) slices_S2x1600000_S1x1600000_1_0) shapeCasts_S1x1600000_S1600000))) (broadcastInDim S1600000x1 ![0, 1] bcast_S1x1_S1600000x1_0_1 (broadcastInDim S1x1 ![1] bcast_S1_S1x1_1 (constantI S1 32 49999#32))))) (constantI S_ 1 1#1) reducesTo_S1600000x1_S1600000_d1 h_S_)) (Host.gather gather_S50000x32_S1600000x1_S1600000x32_1_0_n_n_0_1_132 (m ((c.tc : Thread nD τ).loc main_arg0)) (broadcastInDim S1600000x1 ![0] bcast_S1600000_S1600000x1_0 (select (cmpi .slt (shapeCast S1600000 (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 0#32))) (addi (shapeCast S1600000 (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 50000#32))) (shapeCast S1600000 (extractStridedSlice S1x1600000 ![1, 0] (m ((c.tc : Thread nD τ).loc main_arg1)) slices_S2x1600000_S1x1600000_1_0) shapeCasts_S1x1600000_S1600000)))) (broadcastInDim S1600000x32 ![] bcast_S_S1600000x32 (constant S_ .f32 0x7FC00000#32)) := by
  show StableHlo.after hostOps0_2 (StableHlo.after hostOps0_1 (StableHlo.after hostOps0 (W0 m ρ c))) (Proc.devRef .tc main_v4) = _
  rw [s02_v4, hostOps0_1_eq, s01_v4, s00_v3, s00_arg0] <;> rfl

section Stretch1
variable (X : Valuation τ sig (Elt F))

/-- The node gather with its bounds test, read off the stretch over any entry contents. -/
theorem s11_v20 : (StableHlo.after (ops11 (F := F)) X (Proc.devRef .tc main_v20) : (⟨S50000x16, .f32⟩ : BufTy).Contents (Elt F))
    = select (broadcastInDim S50000x16 ![0] bcast_S50000_S50000x16_0 (Host.reduce IntOp.andi (andi (cmpi .sge (broadcastInDim S50000x1 ![0] bcast_S50000_S50000x1_0 (select (cmpi .slt (X (Proc.devRef .tc main_arg4)) (broadcastInDim S50000 ![] bcast_S_S50000 (constantI S_ 32 0#32))) (addi (X (Proc.devRef .tc main_arg4)) (broadcastInDim S50000 ![] bcast_S_S50000 (constantI S_ 32 64#32))) (X (Proc.devRef .tc main_arg4)))) (broadcastInDim S50000x1 ![] bcast_S_S50000x1 (constantI S_ 32 0#32))) (cmpi .sle (broadcastInDim S50000x1 ![0] bcast_S50000_S50000x1_0 (select (cmpi .slt (X (Proc.devRef .tc main_arg4)) (broadcastInDim S50000 ![] bcast_S_S50000 (constantI S_ 32 0#32))) (addi (X (Proc.devRef .tc main_arg4)) (broadcastInDim S50000 ![] bcast_S_S50000 (constantI S_ 32 64#32))) (X (Proc.devRef .tc main_arg4)))) (broadcastInDim S50000x1 ![0, 1] bcast_S1x1_S50000x1_0_1 (broadcastInDim S1x1 ![1] bcast_S1_S1x1_1 (constantI S1 32 63#32))))) (constantI S_ 1 1#1) reducesTo_S50000x1_S50000_d1 h_S_)) (Host.gather gather_S64x16_S50000x1_S50000x16_1_0_n_n_0_1_116 (X (Proc.devRef .tc main_arg3)) (broadcastInDim S50000x1 ![0] bcast_S50000_S50000x1_0 (select (cmpi .slt (X (Proc.devRef .tc main_arg4)) (broadcastInDim S50000 ![] bcast_S_S50000 (constantI S_ 32 0#32))) (addi (X (Proc.devRef .tc main_arg4)) (broadcastInDim S50000 ![] bcast_S_S50000 (constantI S_ 32 64#32))) (X (Proc.devRef .tc main_arg4))))) (broadcastInDim S50000x16 ![] bcast_S_S50000x16 (constant S_ .f32 0x7FC00000#32)) := by
  unfold ops11
  refine Eq.trans (b := ?mid) ?h1 ?h2
  case h1 => after_results_simp; exact rfl
  case h2 => rfl

theorem s12_v20 : StableHlo.after (hostOps1_2 (F := F)) X (Proc.devRef .tc main_v20) = X (Proc.devRef .tc main_v20) := by
  after_results_simp
theorem s10_arg3 : StableHlo.after (hostOps1 (F := F)) X (Proc.devRef .tc main_arg3) = X (Proc.devRef .tc main_arg3) := by
  after_results_simp
theorem s10_arg4 : StableHlo.after (hostOps1 (F := F)) X (Proc.devRef .tc main_arg4) = X (Proc.devRef .tc main_arg4) := by
  after_results_simp

/-- The three stretches before region 1 leave an argument array as they found it. -/
theorem r1_arg0 : StableHlo.after hostOps1_2 (StableHlo.after hostOps1_1 (StableHlo.after hostOps1 X)) (Proc.devRef .tc main_arg0) = X (Proc.devRef .tc main_arg0) := by after_results_simp
theorem r1_arg9 : StableHlo.after hostOps1_2 (StableHlo.after hostOps1_1 (StableHlo.after hostOps1 X)) (Proc.devRef .tc main_arg9) = X (Proc.devRef .tc main_arg9) := by after_results_simp
theorem r1_arg11 : StableHlo.after hostOps1_2 (StableHlo.after hostOps1_1 (StableHlo.after hostOps1 X)) (Proc.devRef .tc main_arg11) = X (Proc.devRef .tc main_arg11) := by after_results_simp
theorem r1_v21 : (StableHlo.after hostOps1_2 (StableHlo.after hostOps1_1 (StableHlo.after hostOps1 X)) (Proc.devRef .tc main_v21) : (⟨S1x64, .f32⟩ : BufTy).Contents (Elt F)) = shapeCast S1x64 (X (Proc.devRef .tc main_arg10)) shapeCasts_S64_S1x64 := by
  after_results_simp <;> rfl
theorem r1_v22 : (StableHlo.after hostOps1_2 (StableHlo.after hostOps1_1 (StableHlo.after hostOps1 X)) (Proc.devRef .tc main_v22) : (⟨S1x32, .f32⟩ : BufTy).Contents (Elt F)) = shapeCast S1x32 (X (Proc.devRef .tc main_arg12)) shapeCasts_S32_S1x32 := by
  after_results_simp <;> rfl
/-- The mean over incoming edges: the sum scattered by row, divided by the count scattered by row and floored at one. -/
theorem r1_v19 : (StableHlo.after hostOps1_2 (StableHlo.after hostOps1_1 (StableHlo.after hostOps1 X)) (Proc.devRef .tc main_v19) : (⟨S50000x64, .f32⟩ : BufTy).Contents (Elt F))
    = Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (X (Proc.devRef .tc main_v1))) (X (Proc.devRef .tc main_v7))) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (X (Proc.devRef .tc main_v1))) (broadcastInDim S1600000 ![] bcast_S_S1600000 (constant S_ .f32 0x3F800000#32))) (broadcastInDim S50000 ![] bcast_S_S50000 (constant S_ .f32 0x3F800000#32))))) := by
  refine Eq.trans (b := ?mid) ?h1 ?h2
  case h1 => after_results_simp; exact rfl
  case h2 => rfl

end Stretch1

/-! ## The contents at region 0's exit, where region 1's stretches read them -/

theorem W3_arg0 : W3 m ρ c (Proc.devRef .tc main_arg0) = (m ((c.tc : Thread nD τ).loc main_arg0)) := by
  show StableHlo.after hostOps0_2 _ (Proc.devRef .tc main_arg0) = _
  after_results_simp <;> rfl
theorem W3_v1 : (W3 m ρ c (Proc.devRef .tc main_v1) : (⟨S1600000, .i32⟩ : BufTy).Contents (Elt F)) = (shapeCast S1600000 (extractStridedSlice S1x1600000 ![0, 0] (m ((c.tc : Thread nD τ).loc main_arg1)) slices_S2x1600000_S1x1600000_0_0) shapeCasts_S1x1600000_S1600000) := by
  show StableHlo.after hostOps0_2 _ (Proc.devRef .tc main_v1) = _
  after_results_simp <;> rfl
theorem W4_v1 : (W4 m ρ c (Proc.devRef .tc main_v1) : (⟨S1600000, .i32⟩ : BufTy).Contents (Elt F)) = (shapeCast S1600000 (extractStridedSlice S1x1600000 ![0, 0] (m ((c.tc : Thread nD τ).loc main_arg1)) slices_S2x1600000_S1x1600000_0_0) shapeCasts_S1x1600000_S1600000) :=
  (W4_of_ne m ρ c main_v1 (by decide)).trans (W3_v1 m ρ c)
theorem W4_v7 : W4 m ρ c (Proc.devRef .tc main_v7) = ((Gen.dat0 (Gen.V3 m ρ) c).arrAt 6 cfg0.N) := W4_arr m ρ c 6
theorem W4_arg0 : W4 m ρ c (Proc.devRef .tc main_arg0) = (m ((c.tc : Thread nD τ).loc main_arg0)) :=
  (W4_of_ne m ρ c main_arg0 (by decide)).trans (W3_arg0 m ρ c)
theorem W3_arg3 : W3 m ρ c (Proc.devRef .tc main_arg3) = (m ((c.tc : Thread nD τ).loc main_arg3)) := by
  show StableHlo.after hostOps0_2 _ (Proc.devRef .tc main_arg3) = _
  after_results_simp <;> rfl
theorem W4_arg3 : W4 m ρ c (Proc.devRef .tc main_arg3) = (m ((c.tc : Thread nD τ).loc main_arg3)) :=
  (W4_of_ne m ρ c main_arg3 (by decide)).trans (W3_arg3 m ρ c)
theorem W3_arg4 : W3 m ρ c (Proc.devRef .tc main_arg4) = (m ((c.tc : Thread nD τ).loc main_arg4)) := by
  show StableHlo.after hostOps0_2 _ (Proc.devRef .tc main_arg4) = _
  after_results_simp <;> rfl
theorem W4_arg4 : W4 m ρ c (Proc.devRef .tc main_arg4) = (m ((c.tc : Thread nD τ).loc main_arg4)) :=
  (W4_of_ne m ρ c main_arg4 (by decide)).trans (W3_arg4 m ρ c)
theorem W3_arg9 : W3 m ρ c (Proc.devRef .tc main_arg9) = (m ((c.tc : Thread nD τ).loc main_arg9)) := by
  show StableHlo.after hostOps0_2 _ (Proc.devRef .tc main_arg9) = _
  after_results_simp <;> rfl
theorem W4_arg9 : W4 m ρ c (Proc.devRef .tc main_arg9) = (m ((c.tc : Thread nD τ).loc main_arg9)) :=
  (W4_of_ne m ρ c main_arg9 (by decide)).trans (W3_arg9 m ρ c)
theorem W3_arg10 : W3 m ρ c (Proc.devRef .tc main_arg10) = (m ((c.tc : Thread nD τ).loc main_arg10)) := by
  show StableHlo.after hostOps0_2 _ (Proc.devRef .tc main_arg10) = _
  after_results_simp <;> rfl
theorem W4_arg10 : W4 m ρ c (Proc.devRef .tc main_arg10) = (m ((c.tc : Thread nD τ).loc main_arg10)) :=
  (W4_of_ne m ρ c main_arg10 (by decide)).trans (W3_arg10 m ρ c)
theorem W3_arg11 : W3 m ρ c (Proc.devRef .tc main_arg11) = (m ((c.tc : Thread nD τ).loc main_arg11)) := by
  show StableHlo.after hostOps0_2 _ (Proc.devRef .tc main_arg11) = _
  after_results_simp <;> rfl
theorem W4_arg11 : W4 m ρ c (Proc.devRef .tc main_arg11) = (m ((c.tc : Thread nD τ).loc main_arg11)) :=
  (W4_of_ne m ρ c main_arg11 (by decide)).trans (W3_arg11 m ρ c)
theorem W3_arg12 : W3 m ρ c (Proc.devRef .tc main_arg12) = (m ((c.tc : Thread nD τ).loc main_arg12)) := by
  show StableHlo.after hostOps0_2 _ (Proc.devRef .tc main_arg12) = _
  after_results_simp <;> rfl
theorem W4_arg12 : W4 m ρ c (Proc.devRef .tc main_arg12) = (m ((c.tc : Thread nD τ).loc main_arg12)) :=
  (W4_of_ne m ρ c main_arg12 (by decide)).trans (W3_arg12 m ρ c)

/-! ## Region 1's entry contents

Three stretches lie between the regions: the mean over incoming edges, the node gather, the two bias reshapes; they
start from the contents at region 0's exit, which differ from its entry contents only at its output array. -/

theorem V7_arg0 : Gen.V7 m ρ c main_arg0 = (m ((c.tc : Thread nD τ).loc main_arg0)) := by
  show StableHlo.after hostOps1_2 (StableHlo.after hostOps1_1 (StableHlo.after hostOps1 (W4 m ρ c))) (Proc.devRef .tc main_arg0) = _
  rw [r1_arg0, W4_arg0]
theorem V7_arg9 : Gen.V7 m ρ c main_arg9 = (m ((c.tc : Thread nD τ).loc main_arg9)) := by
  show StableHlo.after hostOps1_2 (StableHlo.after hostOps1_1 (StableHlo.after hostOps1 (W4 m ρ c))) (Proc.devRef .tc main_arg9) = _
  rw [r1_arg9, W4_arg9]
theorem V7_arg11 : Gen.V7 m ρ c main_arg11 = (m ((c.tc : Thread nD τ).loc main_arg11)) := by
  show StableHlo.after hostOps1_2 (StableHlo.after hostOps1_1 (StableHlo.after hostOps1 (W4 m ρ c))) (Proc.devRef .tc main_arg11) = _
  rw [r1_arg11, W4_arg11]
theorem V7_v21 : (Gen.V7 m ρ c main_v21 : (⟨S1x64, .f32⟩ : BufTy).Contents (Elt F)) = shapeCast S1x64 (m ((c.tc : Thread nD τ).loc main_arg10)) shapeCasts_S64_S1x64 := by
  show StableHlo.after hostOps1_2 (StableHlo.after hostOps1_1 (StableHlo.after hostOps1 (W4 m ρ c))) (Proc.devRef .tc main_v21) = _
  rw [r1_v21, W4_arg10]
theorem V7_v22 : (Gen.V7 m ρ c main_v22 : (⟨S1x32, .f32⟩ : BufTy).Contents (Elt F)) = shapeCast S1x32 (m ((c.tc : Thread nD τ).loc main_arg12)) shapeCasts_S32_S1x32 := by
  show StableHlo.after hostOps1_2 (StableHlo.after hostOps1_1 (StableHlo.after hostOps1 (W4 m ρ c))) (Proc.devRef .tc main_v22) = _
  rw [r1_v22, W4_arg12]
theorem V7_v20 : (Gen.V7 m ρ c main_v20 : (⟨S50000x16, .f32⟩ : BufTy).Contents (Elt F))
    = select (broadcastInDim S50000x16 ![0] bcast_S50000_S50000x16_0 (Host.reduce IntOp.andi (andi (cmpi .sge (broadcastInDim S50000x1 ![0] bcast_S50000_S50000x1_0 (select (cmpi .slt (m ((c.tc : Thread nD τ).loc main_arg4)) (broadcastInDim S50000 ![] bcast_S_S50000 (constantI S_ 32 0#32))) (addi (m ((c.tc : Thread nD τ).loc main_arg4)) (broadcastInDim S50000 ![] bcast_S_S50000 (constantI S_ 32 64#32))) (m ((c.tc : Thread nD τ).loc main_arg4)))) (broadcastInDim S50000x1 ![] bcast_S_S50000x1 (constantI S_ 32 0#32))) (cmpi .sle (broadcastInDim S50000x1 ![0] bcast_S50000_S50000x1_0 (select (cmpi .slt (m ((c.tc : Thread nD τ).loc main_arg4)) (broadcastInDim S50000 ![] bcast_S_S50000 (constantI S_ 32 0#32))) (addi (m ((c.tc : Thread nD τ).loc main_arg4)) (broadcastInDim S50000 ![] bcast_S_S50000 (constantI S_ 32 64#32))) (m ((c.tc : Thread nD τ).loc main_arg4)))) (broadcastInDim S50000x1 ![0, 1] bcast_S1x1_S50000x1_0_1 (broadcastInDim S1x1 ![1] bcast_S1_S1x1_1 (constantI S1 32 63#32))))) (constantI S_ 1 1#1) reducesTo_S50000x1_S50000_d1 h_S_)) (Host.gather gather_S64x16_S50000x1_S50000x16_1_0_n_n_0_1_116 (m ((c.tc : Thread nD τ).loc main_arg3)) (broadcastInDim S50000x1 ![0] bcast_S50000_S50000x1_0 (select (cmpi .slt (m ((c.tc : Thread nD τ).loc main_arg4)) (broadcastInDim S50000 ![] bcast_S_S50000 (constantI S_ 32 0#32))) (addi (m ((c.tc : Thread nD τ).loc main_arg4)) (broadcastInDim S50000 ![] bcast_S_S50000 (constantI S_ 32 64#32))) (m ((c.tc : Thread nD τ).loc main_arg4))))) (broadcastInDim S50000x16 ![] bcast_S_S50000x16 (constant S_ .f32 0x7FC00000#32)) := by
  show StableHlo.after hostOps1_2 (StableHlo.after hostOps1_1 (StableHlo.after hostOps1 (W4 m ρ c))) (Proc.devRef .tc main_v20) = _
  rw [s12_v20, hostOps1_1_eq, s11_v20, s10_arg3, s10_arg4, W4_arg3, W4_arg4]
theorem V7_v19 : (Gen.V7 m ρ c main_v19 : (⟨S50000x64, .f32⟩ : BufTy).Contents (Elt F))
    = Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (shapeCast S1600000 (extractStridedSlice S1x1600000 ![0, 0] (m ((c.tc : Thread nD τ).loc main_arg1)) slices_S2x1600000_S1x1600000_0_0) shapeCasts_S1x1600000_S1600000)) ((Gen.dat0 (Gen.V3 m ρ) c).arrAt 6 cfg0.N)) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast S1600000 (extractStridedSlice S1x1600000 ![0, 0] (m ((c.tc : Thread nD τ).loc main_arg1)) slices_S2x1600000_S1x1600000_0_0) shapeCasts_S1x1600000_S1600000)) (broadcastInDim S1600000 ![] bcast_S_S1600000 (constant S_ .f32 0x3F800000#32))) (broadcastInDim S50000 ![] bcast_S_S50000 (constant S_ .f32 0x3F800000#32))))) := by
  show StableHlo.after hostOps1_2 (StableHlo.after hostOps1_1 (StableHlo.after hostOps1 (W4 m ρ c))) (Proc.devRef .tc main_v19) = _
  rw [r1_v19, W4_v1, W4_v7]

end Cert.KernelIdeal.HostChain

end
-- ==== Proof.TakeMask.lean ====
/-
  THE INDEX GUARD OF A FILLING TAKE NEVER FIRES. A take of the rows of a table of N rows at signed 32-bit indices, in
  the mode that fills out-of-range reads, is three steps: wrap a negative index once (c ↦ c + N when c < 0), test the
  wrapped index w against the table (0 ≤ w and w ≤ N − 1), and select, per row, the gathered row where the test holds
  and a fill pattern where it fails. When every index c satisfies −N ≤ c < N the wrapped index lies in [0, N), the
  test holds at every row, and the whole composition is the plain gather at the wrapped indices. The precondition states
  exactly such ranges: its last two conjuncts say that every entry of row 1 of the [2 × 1600000] index array is in
  [−50000, 50000) and every entry of the [50000] segment array is in [−64, 64); they are read back here as integer
  bounds without opening the conjuncts before them.

  * `pre_col`, `pre_batch`: the two ranges, decoded from the precondition being all ones.
  * `guard_word`: the word fact — for −n ≤ c < n signed, `if c < 0 then c + n else c` passes `0 ≤ ·` and `· ≤ n − 1`.
  * `reduce_andi_one`: an and-reduction of a mask that is one everywhere, from one, is one.
  * `take_x_eq`, `take_u_eq`: the guarded take of the [50000 × 32] table at 1600000 indices, and of the [64 × 16]
    table at 50000 indices, is the gather at the wrapped indices, for ANY index vector within the range.
-/
import proofs.«416993_j73959336837503_1_alg».proof.KernelIdeal
import proofs.«416993_j73959336837503_1_alg».proof.Pre_finite_inputs
import Idealize.ShloMosaic.Lib.StableHlo.Predicate
import Idealize.ShloMosaic.Lib.ReduceAll
import Idealize.ShloMosaic.Lib.ValueIdx

noncomputable section

namespace Cert.TakeMask

open Idealize.ShloMosaic Idealize.ShloMosaic.ValueIdx
open Cert.KernelIdeal Cert.KernelIdeal.Facts₀ Cert.KernelIdeal.Facts

variable [Cert.KernelIdeal.Facts] [Cert.Pre_finite_inputs.Facts]

/-! ## The precondition's two index ranges -/

/-- Row 1 of the [2 × 1600000] index array as a vector of 1600000 words: the slice [1:2, :] reshaped. -/
abbrev colOf (a1 : IVec S2x1600000 32) : IVec S1600000 32 :=
  shapeCast S1600000 (extractStridedSlice S1x1600000 ![1, 0] a1 slices_S2x1600000_S1x1600000_1_0) shapeCasts_S1x1600000_S1600000

/-- A pair of signed word tests `lo ≤ x` and `x < hi`, both one, read back as integer bounds. -/
theorem sge_slt_toInt (x lo hi : BitVec 32) (h1 : IntOp.cmpi .sge x lo = 1#1) (h2 : IntOp.cmpi .slt x hi = 1#1) :
    lo.toInt ≤ x.toInt ∧ x.toInt < hi.toInt := by
  unfold IntOp.cmpi at h1 h2
  rw [StableHlo.Predicate.ofBool_eq_one_iff] at h1 h2
  simp only [BitVec.slt, BitVec.sle, decide_eq_true_eq] at h1 h2
  exact ⟨h1, h2⟩

/-- The four bounds as signed values: 2³² − 50000 is −50000 and 2³² − 64 is −64. -/
theorem toInt_m50000 : (4294917296#32 : BitVec 32).toInt = -50000 := by decide
theorem toInt_50000 : (50000#32 : BitVec 32).toInt = 50000 := by decide
theorem toInt_m64 : (4294967232#32 : BitVec 32).toInt = -64 := by decide
theorem toInt_64 : (64#32 : BitVec 32).toInt = 64 := by decide

/-- Both ranges at once. The precondition is a conjunction `(P ∧ all(col test)) ∧ all(segment test)` of one-bit
    words; the two outer conjunctions are split, `P` (the finiteness tests) is dropped unopened, and each `all` is
    read at one element, where it is a pair of signed comparisons against constants. -/
theorem pre_both (a0 : FVec Ideal S50000x32 .f32) (a1 : IVec S2x1600000 32) (a2 : FVec Ideal S1600000x32 .f32)
    (a3 : FVec Ideal S64x16 .f32) (a4 : IVec S50000 32) (a5 : FVec Ideal S64x64 .f32) (a6 : FVec Ideal S64 .f32)
    (a7 : FVec Ideal S64x64 .f32) (a8 : FVec Ideal S64 .f32) (a9 : FVec Ideal S112x64 .f32) (a10 : FVec Ideal S64 .f32)
    (a11 : FVec Ideal S64x32 .f32) (a12 : FVec Ideal S32 .f32)
    (h : Cert.Pre_finite_inputs.fn (F := Ideal) a0 a1 a2 a3 a4 a5 a6 a7 a8 a9 a10 a11 a12 = fun _ => 1#1) :
    (∀ e : S1600000.Idx, -50000 ≤ (colOf a1 e).toInt ∧ (colOf a1 e).toInt < 50000) ∧
    (∀ n : S50000.Idx, -64 ≤ (a4 n).toInt ∧ (a4 n).toInt < 64) := by
  haveI : Subsingleton S_.Idx := ⟨fun a b => funext fun d => d.elim0⟩
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h1, hB⟩ := IntOp.andi_eq_one.1 h0
  obtain ⟨-, hC⟩ := IntOp.andi_eq_one.1 h1
  clear h0 h1
  refine ⟨fun e => ?_, fun n => ?_⟩
  · obtain ⟨hge, hlt⟩ := IntOp.andi_eq_one.1 (Host.reduce_andi_all _ _ _ _ _ hC e)
    have := sge_slt_toInt _ _ _ hge hlt
    rw [← toInt_m50000, ← toInt_50000]
    exact this
  · obtain ⟨hge, hlt⟩ := IntOp.andi_eq_one.1 (Host.reduce_andi_all _ _ _ _ _ hB n)
    have := sge_slt_toInt _ _ _ hge hlt
    rw [← toInt_m64, ← toInt_64]
    exact this

/-- Every entry of row 1 of the index array is in [−50000, 50000). -/
theorem pre_col (a0 : FVec Ideal S50000x32 .f32) (a1 : IVec S2x1600000 32) (a2 : FVec Ideal S1600000x32 .f32)
    (a3 : FVec Ideal S64x16 .f32) (a4 : IVec S50000 32) (a5 : FVec Ideal S64x64 .f32) (a6 : FVec Ideal S64 .f32)
    (a7 : FVec Ideal S64x64 .f32) (a8 : FVec Ideal S64 .f32) (a9 : FVec Ideal S112x64 .f32) (a10 : FVec Ideal S64 .f32)
    (a11 : FVec Ideal S64x32 .f32) (a12 : FVec Ideal S32 .f32)
    (h : Cert.Pre_finite_inputs.fn (F := Ideal) a0 a1 a2 a3 a4 a5 a6 a7 a8 a9 a10 a11 a12 = fun _ => 1#1) :
    ∀ e : S1600000.Idx, -50000 ≤ (colOf a1 e).toInt ∧ (colOf a1 e).toInt < 50000 :=
  (pre_both a0 a1 a2 a3 a4 a5 a6 a7 a8 a9 a10 a11 a12 h).1

/-- Every entry of the segment array is in [−64, 64). -/
theorem pre_batch (a0 : FVec Ideal S50000x32 .f32) (a1 : IVec S2x1600000 32) (a2 : FVec Ideal S1600000x32 .f32)
    (a3 : FVec Ideal S64x16 .f32) (a4 : IVec S50000 32) (a5 : FVec Ideal S64x64 .f32) (a6 : FVec Ideal S64 .f32)
    (a7 : FVec Ideal S64x64 .f32) (a8 : FVec Ideal S64 .f32) (a9 : FVec Ideal S112x64 .f32) (a10 : FVec Ideal S64 .f32)
    (a11 : FVec Ideal S64x32 .f32) (a12 : FVec Ideal S32 .f32)
    (h : Cert.Pre_finite_inputs.fn (F := Ideal) a0 a1 a2 a3 a4 a5 a6 a7 a8 a9 a10 a11 a12 = fun _ => 1#1) :
    ∀ n : S50000.Idx, -64 ≤ (a4 n).toInt ∧ (a4 n).toInt < 64 :=
  (pre_both a0 a1 a2 a3 a4 a5 a6 a7 a8 a9 a10 a11 a12 h).2

/-! ## The word fact, and an and-reduction of ones -/

/-- The wrapped index of a take is inside the table: for a word `c` with `−n ≤ c < n` signed (`K` the word `n`, `B`
    the word `n − 1`), the word `if c < 0 then c + n else c` passes both tests `0 ≤ ·` and `· ≤ n − 1`. For `c < 0`
    the sum `c + n` does not wrap as a signed value: it is `c + n ∈ [0, n)`. -/
theorem guard_word (c K B : BitVec 32) (n : Nat) (hn0 : 0 < n) (hn : n < 2 ^ 30) (hK : K.toNat = n) (hB : B.toNat = n - 1)
    (h : -(n : Int) ≤ c.toInt ∧ c.toInt < n) :
    IntOp.andi (IntOp.cmpi .sge (Scalar.select (IntOp.cmpi .slt c 0#32) (IntOp.addi c K) c) 0#32)
      (IntOp.cmpi .sle (Scalar.select (IntOp.cmpi .slt c 0#32) (IntOp.addi c K) c) B) = 1#1 := by
  obtain ⟨hlo, hhi⟩ := h
  have h0 : (0#32 : BitVec 32).toInt = 0 := by decide
  have hc32 := c.isLt
  by_cases hc : c.toInt < 0
  · have hb : IntOp.cmpi .slt c 0#32 = 1#1 := by
      unfold IntOp.cmpi
      rw [StableHlo.Predicate.ofBool_eq_one_iff]
      simp only [BitVec.slt, h0, decide_eq_true_eq]
      exact hc
    rw [hb, select_one, IntOp.andi_eq_one]
    unfold IntOp.cmpi IntOp.addi
    simp only [StableHlo.Predicate.ofBool_eq_one_iff, BitVec.sle, decide_eq_true_eq, h0]
    unfold BitVec.toInt at hlo hhi hc ⊢
    rw [BitVec.toNat_add, hK, hB]
    split at hc <;> split <;> split <;> omega
  · have hb : IntOp.cmpi .slt c 0#32 = 0#1 := by
      apply eq_zero_of_ne_one
      unfold IntOp.cmpi
      rw [StableHlo.Predicate.ofBool_eq_one_iff]
      simp only [BitVec.slt, h0, decide_eq_true_eq]
      exact hc
    rw [hb, select_zero, IntOp.andi_eq_one]
    unfold IntOp.cmpi
    simp only [StableHlo.Predicate.ofBool_eq_one_iff, BitVec.sle, decide_eq_true_eq, h0]
    unfold BitVec.toInt at hlo hhi hc ⊢
    rw [hB]
    split at hc <;> split <;> omega

/-- A left fold by `and` from 1 over 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- An and-reduction, from an initial 1, of a mask that is 1 at every index is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- A select on such a reduction keeps its first branch. -/
theorem select_of_reduce_one {α : Type} {s t u : Shape} {axes : List (Fin s.rank)} (x : s.Idx → BitVec 1)
    (init : u.Idx → BitVec 1) (h : s.ReducesTo axes t) (hu : 0 < u.numel) (hx : ∀ i, x i = 1#1)
    (hi : init (Shape.Idx.first hu) = 1#1) (j : t.Idx) (a b : α) :
    Scalar.select (Host.reduce IntOp.andi x init h hu j) a b = a := by
  rw [reduce_andi_one x init h hu hx hi j, select_one]

/-! ## The two takes -/

/-- The take of the [50000 × 32] table at 1600000 indices in [−50000, 50000): wrap, test against [0, 49999], select
    the gathered row or the fill pattern. The test holds at every row, so the result is the gather at the wrapped indices. -/
theorem take_x_eq (C : IVec S1600000 32) (hC : ∀ e : S1600000.Idx, -50000 ≤ (C e).toInt ∧ (C e).toInt < 50000)
    (x : FVec Ideal S50000x32 .f32) :
    select
      (broadcastInDim S1600000x32 ![0] bcast_S1600000_S1600000x32_0
        (Host.reduce IntOp.andi
          (andi
            (cmpi .sge
              (broadcastInDim S1600000x1 ![0] bcast_S1600000_S1600000x1_0
                (select (cmpi .slt C (broadcastInDim S1600000 ![] bcast_S_S1600000 (constantI S_ 32 0#32)))
                  (addi C (broadcastInDim S1600000 ![] bcast_S_S1600000 (constantI S_ 32 50000#32))) C))
              (broadcastInDim S1600000x1 ![] bcast_S_S1600000x1 (constantI S_ 32 0#32)))
            (cmpi .sle
              (broadcastInDim S1600000x1 ![0] bcast_S1600000_S1600000x1_0
                (select (cmpi .slt C (broadcastInDim S1600000 ![] bcast_S_S1600000 (constantI S_ 32 0#32)))
                  (addi C (broadcastInDim S1600000 ![] bcast_S_S1600000 (constantI S_ 32 50000#32))) C))
              (broadcastInDim S1600000x1 ![0, 1] bcast_S1x1_S1600000x1_0_1
                (broadcastInDim S1x1 ![1] bcast_S1_S1x1_1 (constantI S1 32 49999#32)))))
          (constantI S_ 1 1#1) reducesTo_S1600000x1_S1600000_d1 h_S_))
      (Host.gather gather_S50000x32_S1600000x1_S1600000x32_1_0_n_n_0_1_132 x
        (broadcastInDim S1600000x1 ![0] bcast_S1600000_S1600000x1_0
          (select (cmpi .slt C (broadcastInDim S1600000 ![] bcast_S_S1600000 (constantI S_ 32 0#32)))
            (addi C (broadcastInDim S1600000 ![] bcast_S_S1600000 (constantI S_ 32 50000#32))) C)))
      (broadcastInDim S1600000x32 ![] bcast_S_S1600000x32 (constant S_ .f32 0x7FC00000#32))
    = (Host.gather gather_S50000x32_S1600000x1_S1600000x32_1_0_n_n_0_1_132 x
        (broadcastInDim S1600000x1 ![0] bcast_S1600000_S1600000x1_0
          (select (cmpi .slt C (broadcastInDim S1600000 ![] bcast_S_S1600000 (constantI S_ 32 0#32)))
            (addi C (broadcastInDim S1600000 ![] bcast_S_S1600000 (constantI S_ 32 50000#32))) C))) := by
  funext j
  show Scalar.select (Host.reduce IntOp.andi _ _ _ _ _) _ _ = _
  exact select_of_reduce_one _ _ _ _
    (fun i => guard_word _ _ _ 50000 (by decide) (by decide) (by rfl) (by rfl) (hC _)) (by rfl) _ _ _

/-- The take of the [64 × 16] table at 50000 indices in [−64, 64): the same composition with bound 63. -/
theorem take_u_eq (C : IVec S50000 32) (hC : ∀ n : S50000.Idx, -64 ≤ (C n).toInt ∧ (C n).toInt < 64)
    (x : FVec Ideal S64x16 .f32) :
    select
      (broadcastInDim S50000x16 ![0] bcast_S50000_S50000x16_0
        (Host.reduce IntOp.andi
          (andi
            (cmpi .sge
              (broadcastInDim S50000x1 ![0] bcast_S50000_S50000x1_0
                (select (cmpi .slt C (broadcastInDim S50000 ![] bcast_S_S50000 (constantI S_ 32 0#32)))
                  (addi C (broadcastInDim S50000 ![] bcast_S_S50000 (constantI S_ 32 64#32))) C))
              (broadcastInDim S50000x1 ![] bcast_S_S50000x1 (constantI S_ 32 0#32)))
            (cmpi .sle
              (broadcastInDim S50000x1 ![0] bcast_S50000_S50000x1_0
                (select (cmpi .slt C (broadcastInDim S50000 ![] bcast_S_S50000 (constantI S_ 32 0#32)))
                  (addi C (broadcastInDim S50000 ![] bcast_S_S50000 (constantI S_ 32 64#32))) C))
              (broadcastInDim S50000x1 ![0, 1] bcast_S1x1_S50000x1_0_1
                (broadcastInDim S1x1 ![1] bcast_S1_S1x1_1 (constantI S1 32 63#32)))))
          (constantI S_ 1 1#1) reducesTo_S50000x1_S50000_d1 h_S_))
      (Host.gather gather_S64x16_S50000x1_S50000x16_1_0_n_n_0_1_116 x
        (broadcastInDim S50000x1 ![0] bcast_S50000_S50000x1_0
          (select (cmpi .slt C (broadcastInDim S50000 ![] bcast_S_S50000 (constantI S_ 32 0#32)))
            (addi C (broadcastInDim S50000 ![] bcast_S_S50000 (constantI S_ 32 64#32))) C)))
      (broadcastInDim S50000x16 ![] bcast_S_S50000x16 (constant S_ .f32 0x7FC00000#32))
    = (Host.gather gather_S64x16_S50000x1_S50000x16_1_0_n_n_0_1_116 x
        (broadcastInDim S50000x1 ![0] bcast_S50000_S50000x1_0
          (select (cmpi .slt C (broadcastInDim S50000 ![] bcast_S_S50000 (constantI S_ 32 0#32)))
            (addi C (broadcastInDim S50000 ![] bcast_S_S50000 (constantI S_ 32 64#32))) C))) := by
  funext j
  show Scalar.select (Host.reduce IntOp.andi _ _ _ _ _) _ _ = _
  exact select_of_reduce_one _ _ _ _
    (fun i => guard_word _ _ _ 64 (by decide) (by decide) (by rfl) (by rfl) (hC _)) (by rfl) _ _ _

end Cert.TakeMask

end
-- ==== Proof.KValue.lean ====
/-
  The blockwise program's result array as the shared expression of its argument arrays.

  Its last region leaves the node stage of the arrays that region finds: the node rows, the mean by sending node of the
  first region's output, and the gathered graph rows. The first region's output is the edge stage of the gathered node
  rows and the edge rows. Each gather fills a row only where its wrapped index is out of range, which the precondition
  excludes, so both gathers are the plain gathers at the wrapped indices; the bias rows, reshaped to one row and read
  back, are the biases.
-/
import proofs.«416993_j73959336837503_1_alg».proof.Defs
import proofs.«416993_j73959336837503_1_alg».proof.Proof.KRun
import proofs.«416993_j73959336837503_1_alg».proof.Proof.EdgeValue
import proofs.«416993_j73959336837503_1_alg».proof.Proof.NodeValue
import proofs.«416993_j73959336837503_1_alg».proof.Proof.HostChain
import proofs.«416993_j73959336837503_1_alg».proof.Proof.TakeMask
import proofs.«416993_j73959336837503_1_alg».proof.Proof.RefValue
import proofs.«416993_j73959336837503_1_alg».proof.Proof.Gen.Pre_finite_inputs

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Facts₀ Cert.KernelIdeal.Facts

/-- A bias of 64 entries reshaped to one row and read back along that row is the bias. -/
theorem row64 (b : FVec Ideal S64 .f32) :
    (fun i : (⟨1, ![64]⟩ : Shape).Idx => shapeCast S1x64 b shapeCasts_S64_S1x64 (ix2 0 (i 0))) = b := by
  funext i
  obtain ⟨k, rfl⟩ : ∃ k : Fin 64, i = ix1 k := ⟨i 0, eq_ix1 i⟩
  refine shapeCast_apply b _ (ix2 0 k) (ix1 k) ?_
  rw [Shape.rowMajor_val_one, Shape.rowMajor_val_two]
  show k.val = 0 * 64 + k.val
  omega

/-- A bias of 32 entries reshaped to one row and read back along that row is the bias. -/
theorem row32 (b : FVec Ideal S32 .f32) :
    (fun i : (⟨1, ![32]⟩ : Shape).Idx => shapeCast S1x32 b shapeCasts_S32_S1x32 (ix2 0 (i 0))) = b := by
  funext i
  obtain ⟨k, rfl⟩ : ∃ k : Fin 32, i = ix1 k := ⟨i 0, eq_ix1 i⟩
  refine shapeCast_apply b _ (ix2 0 k) (ix1 k) ?_
  rw [Shape.rowMajor_val_one, Shape.rowMajor_val_two]
  show k.val = 0 * 32 + k.val
  omega

/-- The shared expression: the node stage of the node rows, of the mean by sending node of the edge stage, and of the
    gathered graph rows. -/
abbrev out (a0 : FVec Ideal S50000x32 .f32) (a1 : IVec S2x1600000 32) (a2 : FVec Ideal S1600000x32 .f32)
    (a3 : FVec Ideal S64x16 .f32) (a4 : IVec S50000 32) (a5 : FVec Ideal S64x64 .f32) (a6 : FVec Ideal S64 .f32)
    (a7 : FVec Ideal S64x64 .f32) (a8 : FVec Ideal S64 .f32) (a9 : FVec Ideal S112x64 .f32) (a10 : FVec Ideal S64 .f32)
    (a11 : FVec Ideal S64x32 .f32) (a12 : FVec Ideal S32 .f32) : FVec Ideal S50000x32 .f32 :=
  Cert.Spec.nodeSpec a0
    (Cert.ReferenceIdeal.RefValue.meanBy (Cert.ReferenceIdeal.RefValue.rowIdx a1)
      (Cert.Spec.edgeSpec (Host.gather Cert.ReferenceIdeal.gather_S50000x32_S1600000x1_S1600000x32_1_0_n_n_0_1_132 a0
        (Cert.ReferenceIdeal.RefValue.colIdx a1)) a2 a5 a6 a7 a8))
    (Host.gather Cert.ReferenceIdeal.gather_S64x16_S50000x1_S50000x16_1_0_n_n_0_1_116 a3 (Cert.ReferenceIdeal.RefValue.batIdx a4))
    a9 a10 a11 a12

variable (m : (ℓ : Loc nD τ sig) → Buf (Elt Ideal) ℓ) (ρ : Dev nD → PrngReg)

/-- The result array after the run, under the precondition. -/
theorem result (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) = fun _ => 1#1) :
    Gen.W8 m ρ c (Proc.devRef .tc main_v23)
      = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := by
  have hcol := Cert.TakeMask.pre_col _ _ _ _ _ _ _ _ _ _ _ _ _ hpre
  have hbat := Cert.TakeMask.pre_batch _ _ _ _ _ _ _ _ _ _ _ _ _ hpre
  rw [Cert.KernelIdeal.KRun.W8_result, Cert.KernelIdeal.NodeValue.final, Cert.KernelIdeal.HostChain.V7_arg0,
    Cert.KernelIdeal.HostChain.V7_v19, Cert.KernelIdeal.HostChain.V7_v20, Cert.KernelIdeal.HostChain.V7_arg9,
    Cert.KernelIdeal.HostChain.V7_v21, Cert.KernelIdeal.HostChain.V7_arg11, Cert.KernelIdeal.HostChain.V7_v22,
    row64, row32, Cert.KernelIdeal.EdgeValue.final]
  unfold Cert.KernelIdeal.EdgeValue.result
  rw [Cert.KernelIdeal.HostChain.V3_v4, Cert.KernelIdeal.HostChain.V3_arg2,
    Cert.KernelIdeal.HostChain.V3_arg5, Cert.KernelIdeal.HostChain.V3_v5, Cert.KernelIdeal.HostChain.V3_arg7,
    Cert.KernelIdeal.HostChain.V3_v6, row64, row64,
    Cert.TakeMask.take_x_eq _ hcol, Cert.TakeMask.take_u_eq _ hbat]
  rfl

/-- The run, with the result array named and the arguments unchanged. -/
theorem run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v23) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ c (hpre c)), (h c).2⟩)
    (Cert.KernelIdeal.KRun.run (F := Ideal) m ρ)

end Cert.KernelIdeal.KValue

end
-- ==== Proof.lean ====
/-
  A graph-network layer, block by block against whole arrays.

  Both programs compute, from node rows x, an edge list (row, col), edge rows e, graph rows u and the nodes' graph
  numbers: the edge stage h = relu (relu ([x[col] ‖ e] · W1a + b1a) · W1b + b1b); its mean by sending node
  agg = (rows of h summed by row) / max (count, 1); and the node stage relu ([x ‖ agg ‖ u[batch]] · W2a + b2a) · W2b + b2b.
  One program runs each dense stage block of rows by block of rows (16000 edges, 10000 nodes at a time), the other on the
  whole arrays. Over the extended reals a change of float format is the identity and a product into a zero accumulator
  is the plain sum, so each stage's entry (r, q) is one and the same expression of row r of its row-wise operands
  (Proof/Spec.lean) in both programs; the blocks tile the rows (Proof/EdgeValue.lean, Proof/NodeValue.lean); the
  operations between the stages are shared text. The one difference is the gather: one program fills a row whose index
  is out of range after the negative-index wrap, the other clamps; the precondition keeps every index in range, where the
  fill never happens (Proof/TakeMask.lean).
-/
import proofs.«416993_j73959336837503_1_alg».proof.Defs
import proofs.«416993_j73959336837503_1_alg».proof.Proof.Gen.Kernel
import proofs.«416993_j73959336837503_1_alg».proof.Proof.Gen.Kernel.Skeleton
import proofs.«416993_j73959336837503_1_alg».proof.Proof.Gen.Kernel.Launch
import proofs.«416993_j73959336837503_1_alg».proof.Proof.Gen.Kernel.Points
import proofs.«416993_j73959336837503_1_alg».proof.Proof.Gen.Kernel.Frame
import proofs.«416993_j73959336837503_1_alg».proof.Proof.Gen.KernelIdeal
import proofs.«416993_j73959336837503_1_alg».proof.Proof.Gen.KernelIdeal.Skeleton
import proofs.«416993_j73959336837503_1_alg».proof.Proof.Gen.KernelIdeal.Launch
import proofs.«416993_j73959336837503_1_alg».proof.Proof.Gen.KernelIdeal.Points
import proofs.«416993_j73959336837503_1_alg».proof.Proof.Gen.KernelIdeal.Frame
import proofs.«416993_j73959336837503_1_alg».proof.Proof.Gen.ReferenceIdeal
import proofs.«416993_j73959336837503_1_alg».proof.Proof.Gen.ReferenceIdeal.Run
import proofs.«416993_j73959336837503_1_alg».proof.Proof.Gen.ReferenceIdeal.Read
import proofs.«416993_j73959336837503_1_alg».proof.Proof.Gen.Pre_finite_inputs
import proofs.«416993_j73959336837503_1_alg».proof.Proof.RefValue
import proofs.«416993_j73959336837503_1_alg».proof.Proof.KValue
import Idealize.ShloMosaic.Adequacy
import Idealize.ShloMosaic.Init

noncomputable section

namespace Cert.Proof

open Idealize.ShloMosaic Idealize.SL.Sem

/-- The two programs' results agree: the blockwise program's result array is the node stage of the shared glue of the
    edge stage (Proof/KValue.lean), the whole-array program's the same expression (Proof/RefValue.lean), of argument
    arrays that agree. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨_, Cert.KernelIdeal.KValue.run m ρ hpre, ?_⟩
  refine (θ_run Cert.ReferenceIdeal.defs _ _).mono (fun r h c => ⟨(h c).1.trans ?_, (h c).2⟩)
    (Cert.ReferenceIdeal.RefValue.run m' ρ')
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
